-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x768x32x9 : Shape := ⟨4, ![16, 768, 32, 9]⟩
abbrev S16x768x32 : Shape := ⟨3, ![16, 768, 32]⟩
abbrev S128x9 : Shape := ⟨2, ![128, 9]⟩
abbrev S128 : Shape := ⟨1, ![128]⟩
abbrev S128x256 : Shape := ⟨2, ![128, 256]⟩
abbrev S128x128 : Shape := ⟨2, ![128, 128]⟩
abbrev S256x128 : Shape := ⟨2, ![256, 128]⟩
abbrev S256 : Shape := ⟨1, ![256]⟩
abbrev S_ : Shape := ⟨0, ![]⟩

class Facts : Prop where
  bcast_S_S16x768x32x9 : S_.BroadcastsInDim S16x768x32x9 (![] : Fin 0 → Fin S16x768x32x9.rank)
  reducesTo_S16x768x32x9_S_d0_1_2_3 : S16x768x32x9.ReducesTo [0, 1, 2, 3] S_
  h_S_ : 0 < S_.numel
  bcast_S_S128x9 : S_.BroadcastsInDim S128x9 (![] : Fin 0 → Fin S128x9.rank)
  reducesTo_S128x9_S_d0_1 : S128x9.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_
  bcast_S_S128x128 : S_.BroadcastsInDim S128x128 (![] : Fin 0 → Fin S128x128.rank)
  reducesTo_S128x128_S_d0_1 : S128x128.ReducesTo [0, 1] S_
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_

variable [Facts]

def fn_part5 {F : FTy → Type} [FloatOps F] (main_arg19 : FVec F S256x128 .f32) (main_arg20 : FVec F S256 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S256x128 .f32 := Host.absf main_arg19
  let main_cst_34 : FVec F S_ .f32 := constant S_ .f32 0x7F800000#32
  let main_v90 : FVec F S256x128 .f32 := broadcastInDim S256x128 ![] bcast_S_S256x128 main_cst_34
  let main_v91 : IVec S256x128 1 := cmpf .olt main_v89 main_v90
  let main_c_35 : IVec S_ 1 := constantI S_ 1 1#1
  let main_v92 : IVec S_ 1 := (fun x v => Host.reduce IntOp.andi x v reducesTo_S256x128_S_d0_1 h_S_) main_v91 main_c_35
  let main_v93 : IVec S_ 1 := andi main_v88 main_v92
  let main_v94 : FVec F S256 .f32 := Host.absf main_arg20
  let main_cst_36 : FVec F S_ .f32 := constant S_ .f32 0x7F800000#32
  let main_v95 : FVec F S256 .f32 := broadcastInDim S256 ![] bcast_S_S256 main_cst_36
  let main_v96 : IVec S256 1 := cmpf .olt main_v94 main_v95
  let main_c_37 : IVec S_ 1 := constantI S_ 1 1#1
  let main_v97 : IVec S_ 1 := (fun x v => Host.reduce IntOp.andi x v reducesTo_S256_S_d0 h_S_) main_v96 main_c_37
  let main_v98 : IVec S_ 1 := andi main_v93 main_v97
  main_v98

def fn_part4 {F : FTy → Type} [FloatOps F] (main_arg15 : FVec F S128 .f32) (main_arg16 : FVec F S128 .f32) (main_arg17 : FVec F S128x128 .f32) (main_arg18 : FVec F S128 .f32) (main_arg19 : FVec F S256x128 .f32) (main_arg20 : FVec F S256 .f32) (main_v63 : IVec S_ 1) (main_v67 : IVec S_ 1) : IVec S_ 1 :=
  let main_v68 : IVec S_ 1 := andi main_v63 main_v67
  let main_v69 : FVec F S128 .f32 := Host.absf main_arg15
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128 .f32 := Host.absf main_arg16
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128x128 .f32 := Host.absf main_arg17
  let main_cst_30 : FVec F S_ .f32 := constant S_ .f32 0x7F800000#32
  let main_v80 : FVec F S128x128 .f32 := broadcastInDim S128x128 ![] bcast_S_S128x128 main_cst_30
  let main_v81 : IVec S128x128 1 := cmpf .olt main_v79 main_v80
  let main_c_31 : IVec S_ 1 := constantI S_ 1 1#1
  let main_v82 : IVec S_ 1 := (fun x v => Host.reduce IntOp.andi x v reducesTo_S128x128_S_d0_1 h_S_) main_v81 main_c_31
  let main_v83 : IVec S_ 1 := andi main_v78 main_v82
  let main_v84 : FVec F S128 .f32 := Host.absf main_arg18
  let main_cst_32 : FVec F S_ .f32 := constant S_ .f32 0x7F800000#32
  fn_part5 (F := F) main_arg19 main_arg20 main_v83 main_v84 main_cst_32

def fn_part3 {F : FTy → Type} [FloatOps F] (main_arg12 : FVec F S128x128 .f32) (main_arg13 : FVec F S128 .f32) (main_arg14 : FVec F S128 .f32) (main_arg15 : FVec F S128 .f32) (main_arg16 : FVec F S128 .f32) (main_arg17 : FVec F S128x128 .f32) (main_arg18 : FVec F S128 .f32) (main_arg19 : FVec F S256x128 .f32) (main_arg20 : FVec F S256 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg12
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg15 main_arg16 main_arg17 main_arg18 main_arg19 main_arg20 main_v63 main_v67

def fn_part2 {F : FTy → Type} [FloatOps F] (main_arg8 : FVec F S128 .f32) (main_arg9 : FVec F S128 .f32) (main_arg10 : FVec F S128 .f32) (main_arg11 : FVec F S128 .f32) (main_arg12 : FVec F S128x128 .f32) (main_arg13 : FVec F S128 .f32) (main_arg14 : FVec F S128 .f32) (main_arg15 : FVec F S128 .f32) (main_arg16 : FVec F S128 .f32) (main_arg17 : FVec F S128x128 .f32) (main_arg18 : FVec F S128 .f32) (main_arg19 : FVec F S256x128 .f32) (main_arg20 : FVec F S256 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_arg14 main_arg15 main_arg16 main_arg17 main_arg18 main_arg19 main_arg20 main_v48 main_v49 main_v50

def fn_part1 {F : FTy → Type} [FloatOps F] (main_arg5 : FVec F S128 .f32) (main_arg6 : FVec F S128 .f32) (main_arg7 : FVec F S128x256 .f32) (main_arg8 : FVec F S128 .f32) (main_arg9 : FVec F S128 .f32) (main_arg10 : FVec F S128 .f32) (main_arg11 : FVec F S128 .f32) (main_arg12 : FVec F S128x128 .f32) (main_arg13 : FVec F S128 .f32) (main_arg14 : FVec F S128 .f32) (main_arg15 : FVec F S128 .f32) (main_arg16 : FVec F S128 .f32) (main_arg17 : FVec F S128x128 .f32) (main_arg18 : FVec F S128 .f32) (main_arg19 : FVec F S256x128 .f32) (main_arg20 : FVec F S256 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x256 .f32 := Host.absf main_arg7
  let main_cst_10 : FVec F S_ .f32 := constant S_ .f32 0x7F800000#32
  let main_v30 : FVec F S128x256 .f32 := broadcastInDim S128x256 ![] bcast_S_S128x256 main_cst_10
  let main_v31 : IVec S128x256 1 := cmpf .olt main_v29 main_v30
  let main_c_11 : IVec S_ 1 := constantI S_ 1 1#1
  let main_v32 : IVec S_ 1 := (fun x v => Host.reduce IntOp.andi x v reducesTo_S128x256_S_d0_1 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_arg20 main_v33

def fn {F : FTy → Type} [FloatOps F] (main_arg0 : FVec F S16x768x32x9 .f32) (main_arg1 : IVec S16x768x32 1) (main_arg2 : FVec F S128x9 .f32) (main_arg3 : FVec F S128 .f32) (main_arg4 : FVec F S128 .f32) (main_arg5 : FVec F S128 .f32) (main_arg6 : FVec F S128 .f32) (main_arg7 : FVec F S128x256 .f32) (main_arg8 : FVec F S128 .f32) (main_arg9 : FVec F S128 .f32) (main_arg10 : FVec F S128 .f32) (main_arg11 : FVec F S128 .f32) (main_arg12 : FVec F S128x128 .f32) (main_arg13 : FVec F S128 .f32) (main_arg14 : FVec F S128 .f32) (main_arg15 : FVec F S128 .f32) (main_arg16 : FVec F S128 .f32) (main_arg17 : FVec F S128x128 .f32) (main_arg18 : FVec F S128 .f32) (main_arg19 : FVec F S256x128 .f32) (main_arg20 : FVec F S256 .f32) : IVec S_ 1 :=
  let main_v0 : FVec F S16x768x32x9 .f32 := Host.absf main_arg0
  let main_cst : FVec F S_ .f32 := constant S_ .f32 0x7F800000#32
  let main_v1 : FVec F S16x768x32x9 .f32 := broadcastInDim S16x768x32x9 ![] bcast_S_S16x768x32x9 main_cst
  let main_v2 : IVec S16x768x32x9 1 := cmpf .olt main_v0 main_v1
  let main_c : IVec S_ 1 := constantI S_ 1 1#1
  let main_v3 : IVec S_ 1 := (fun x v => Host.reduce IntOp.andi x v reducesTo_S16x768x32x9_S_d0_1_2_3 h_S_) main_v2 main_c
  let main_v4 : FVec F S128x9 .f32 := Host.absf main_arg2
  let main_cst_0 : FVec F S_ .f32 := constant S_ .f32 0x7F800000#32
  let main_v5 : FVec F S128x9 .f32 := broadcastInDim S128x9 ![] bcast_S_S128x9 main_cst_0
  let main_v6 : IVec S128x9 1 := cmpf .olt main_v4 main_v5
  let main_c_1 : IVec S_ 1 := constantI S_ 1 1#1
  let main_v7 : IVec S_ 1 := (fun x v => Host.reduce IntOp.andi x v reducesTo_S128x9_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_arg20 main_v13 main_v16
-- ==== Kernel.lean ====
abbrev S16x768x32x9 : Shape := ⟨4, ![16, 768, 32, 9]⟩
abbrev S16x768x32 : Shape := ⟨3, ![16, 768, 32]⟩
abbrev S128x9 : Shape := ⟨2, ![128, 9]⟩
abbrev S128 : Shape := ⟨1, ![128]⟩
abbrev S128x256 : Shape := ⟨2, ![128, 256]⟩
abbrev S128x128 : Shape := ⟨2, ![128, 128]⟩
abbrev S256x128 : Shape := ⟨2, ![256, 128]⟩
abbrev S256 : Shape := ⟨1, ![256]⟩
abbrev S16x768x256 : Shape := ⟨3, ![16, 768, 256]⟩
abbrev S1x64x32x9 : Shape := ⟨4, ![1, 64, 32, 9]⟩
abbrev S1x64x32 : Shape := ⟨3, ![1, 64, 32]⟩
abbrev S1x64x256 : Shape := ⟨3, ![1, 64, 256]⟩
abbrev S64x32x9 : Shape := ⟨3, ![64, 32, 9]⟩
abbrev S2048x9 : Shape := ⟨2, ![2048, 9]⟩
abbrev S9x128 : Shape := ⟨2, ![9, 128]⟩
abbrev S2048x128 : Shape := ⟨2, ![2048, 128]⟩
abbrev S1x128 : Shape := ⟨2, ![1, 128]⟩
abbrev S64x32 : Shape := ⟨2, ![64, 32]⟩
abbrev S2048x1 : Shape := ⟨2, ![2048, 1]⟩
abbrev S64x32x128 : Shape := ⟨3, ![64, 32, 128]⟩
abbrev S64x128 : Shape := ⟨2, ![64, 128]⟩
abbrev S64x1x128 : Shape := ⟨3, ![64, 1, 128]⟩
abbrev S2048x256 : Shape := ⟨2, ![2048, 256]⟩
abbrev S64x256 : Shape := ⟨2, ![64, 256]⟩
abbrev S1x256 : Shape := ⟨2, ![1, 256]⟩
abbrev S64 : Shape := ⟨1, ![64]⟩
abbrev S64x1 : Shape := ⟨2, ![64, 1]⟩

abbrev nBuf : Space → Nat
  | .hbm => 23
  | .vmem => 25
  | .smem => 0
  | _ => 0

abbrev bufTy : (tb : Table) → Fin (tcTables nBuf tb) → BufTy
  | .hbm, ⟨0, _⟩ => ⟨S16x768x32x9, .f32⟩
  | .hbm, ⟨1, _⟩ => ⟨S16x768x32, .i1⟩
  | .hbm, ⟨2, _⟩ => ⟨S128x9, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128x256, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S128, .f32⟩
  | .hbm, ⟨15, _⟩ => ⟨S128, .f32⟩
  | .hbm, ⟨16, _⟩ => ⟨S128, .f32⟩
  | .hbm, ⟨17, _⟩ => ⟨S128x128, .f32⟩
  | .hbm, ⟨18, _⟩ => ⟨S128, .f32⟩
  | .hbm, ⟨19, _⟩ => ⟨S256x128, .f32⟩
  | .hbm, ⟨20, _⟩ => ⟨S256, .f32⟩
  | .hbm, ⟨21, _⟩ => ⟨S16x768x32, .f32⟩
  | .hbm, ⟨22, _⟩ => ⟨S16x768x256, .f32⟩
  | .local _ .vmem, ⟨0, _⟩ => ⟨S1x64x32x9, .f32⟩
  | .local _ .vmem, ⟨1, _⟩ => ⟨S1x64x32x9, .f32⟩
  | .local _ .vmem, ⟨2, _⟩ => ⟨S1x64x32, .f32⟩
  | .local _ .vmem, ⟨3, _⟩ => ⟨S1x64x32, .f32⟩
  | .local _ .vmem, ⟨4, _⟩ => ⟨S128x9, .f32⟩
  | .local _ .vmem, ⟨5, _⟩ => ⟨S128, .f32⟩
  | .local _ .vmem, ⟨6, _⟩ => ⟨S128, .f32⟩
  | .local _ .vmem, ⟨7, _⟩ => ⟨S128, .f32⟩
  | .local _ .vmem, ⟨8, _⟩ => ⟨S128, .f32⟩
  | .local _ .vmem, ⟨9, _⟩ => ⟨S128x256, .f32⟩
  | .local _ .vmem, ⟨10, _⟩ => ⟨S128, .f32⟩
  | .local _ .vmem, ⟨11, _⟩ => ⟨S128, .f32⟩
  | .local _ .vmem, ⟨12, _⟩ => ⟨S128, .f32⟩
  | .local _ .vmem, ⟨13, _⟩ => ⟨S128, .f32⟩
  | .local _ .vmem, ⟨14, _⟩ => ⟨S128x128, .f32⟩
  | .local _ .vmem, ⟨15, _⟩ => ⟨S128, .f32⟩
  | .local _ .vmem, ⟨16, _⟩ => ⟨S128, .f32⟩
  | .local _ .vmem, ⟨17, _⟩ => ⟨S128, .f32⟩
  | .local _ .vmem, ⟨18, _⟩ => ⟨S128, .f32⟩
  | .local _ .vmem, ⟨19, _⟩ => ⟨S128x128, .f32⟩
  | .local _ .vmem, ⟨20, _⟩ => ⟨S128, .f32⟩
  | .local _ .vmem, ⟨21, _⟩ => ⟨S256x128, .f32⟩
  | .local _ .vmem, ⟨22, _⟩ => ⟨S256, .f32⟩
  | .local _ .vmem, ⟨23, _⟩ => ⟨S1x64x256, .f32⟩
  | .local _ .vmem, ⟨24, _⟩ => ⟨S1x64x256, .f32⟩
  | _, _ => ⟨S16x768x32x9, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg18_0 : Ref sig .tc := ⟨.vmem, 20, rfl⟩
abbrev cc0_stg19_0 : Ref sig .tc := ⟨.vmem, 21, rfl⟩
abbrev cc0_stg20_0 : Ref sig .tc := ⟨.vmem, 22, rfl⟩
abbrev cc0_stg21_0 : Ref sig .tc := ⟨.vmem, 23, rfl⟩
abbrev cc0_stg21_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem18_0 : DmaSem sig := 20
abbrev cc0_sem19_0 : DmaSem sig := 21
abbrev cc0_sem20_0 : DmaSem sig := 22
abbrev cc0_sem21_0 : DmaSem sig := 23
abbrev cc0_sem21_1 : DmaSem sig := 24

abbrev nD : Nat := 1
abbrev τ : Topo := Topo.v7x

variable {F : FTy → Type} [FloatOps F]

abbrev grid0 : Pipeline.Grid := ⟨2, ![16, 12], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_9 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_10 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_11 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_14 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_15 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_16 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x64x32x9 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S128x9 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S128x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S128x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 1 → Memref sig .tc .vmem S256x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false, false]

abbrev stage0_20 : Fin 1 → Memref sig .tc .vmem S256 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false, false]

abbrev stage0_21 : Fin 2 → Memref sig .tc .vmem S1x64x256 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

class Facts₀ : Prop where
  inb_S1x64x32x9_S1x64x32x9_0_0_0_0 : ∀ a, (![0, 0, 0, 0] : Fin 4 → Nat) a + S1x64x32x9.size a ≤ S1x64x32x9.size a
  h_S1x64x32x9 : 0 < S1x64x32x9.numel
  shapeCasts_S1x64x32x9_S64x32x9 : S1x64x32x9.ShapeCasts S64x32x9
  bitsLt_bf16_f32 : FTy.bits .bf16 < FTy.bits .f32
  shapeCasts_S64x32x9_S2048x9 : S64x32x9.ShapeCasts S2048x9
  inb_S128x9_S128x9_0_0 : ∀ a, (![0, 0] : Fin 2 → Nat) a + S128x9.size a ≤ S128x9.size a
  h_S128x9 : 0 < S128x9.numel
  transposes_S128x9_p1_0_S9x128 : S128x9.Transposes [1, 0] S9x128
  inb_S128_S128_0 : ∀ a, (![0] : Fin 1 → Nat) a + S128.size a ≤ S128.size a
  h_S128 : 0 < S128.numel
  shapeCasts_S128_S1x128 : S128.ShapeCasts S1x128
  broadcasts_S1x128_S2048x128 : S1x128.Broadcasts S2048x128
  inb_S1x64x32_S1x64x32_0_0_0 : ∀ a, (![0, 0, 0] : Fin 3 → Nat) a + S1x64x32.size a ≤ S1x64x32.size a
  h_S1x64x32 : 0 < S1x64x32.numel
  shapeCasts_S1x64x32_S64x32 : S1x64x32.ShapeCasts S64x32
  shapeCasts_S64x32_S2048x1 : S64x32.ShapeCasts S2048x1
  broadcasts_S2048x1_S2048x128 : S2048x1.Broadcasts S2048x128
  shapeCasts_S2048x128_S64x32x128 : S2048x128.ShapeCasts S64x32x128
  reduces_S64x32x128_S64x128 : S64x32x128.Reduces [1] S64x128
  shapeCasts_S64x128_S64x1x128 : S64x128.ShapeCasts S64x1x128
  shapeCasts_S64x1x128_S64x1x128 : S64x1x128.ShapeCasts S64x1x128
  broadcasts_S64x1x128_S64x32x128 : S64x1x128.Broadcasts S64x32x128
  shapeCasts_S64x32x128_S2048x128 : S64x32x128.ShapeCasts S2048x128
  concatenates_S2048x128_S2048x128_S2048x256_d1 : Shape.Concatenates [S2048x128, S2048x128] S2048x256 1
  inb_S128x256_S128x256_0_0 : ∀ a, (![0, 0] : Fin 2 → Nat) a + S128x256.size a ≤ S128x256.size a
  h_S128x256 : 0 < S128x256.numel
  transposes_S128x256_p1_0_S256x128 : S128x256.Transposes [1, 0] S256x128
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  broadcasts_S1x128_S64x128 : S1x128.Broadcasts S64x128
  inb_S256x128_S256x128_0_0 : ∀ a, (![0, 0] : Fin 2 → Nat) a + S256x128.size a ≤ S256x128.size a
  h_S256x128 : 0 < S256x128.numel
  transposes_S256x128_p1_0_S128x256 : S256x128.Transposes [1, 0] S128x256
  inb_S256_S256_0 : ∀ a, (![0] : Fin 1 → Nat) a + S256.size a ≤ S256.size a
  h_S256 : 0 < S256.numel
  shapeCasts_S256_S1x256 : S256.ShapeCasts S1x256
  broadcasts_S1x256_S64x256 : S1x256.Broadcasts S64x256
  reduces_S64x32_S64 : S64x32.Reduces [1] S64
  shapeCasts_S64_S64x1 : S64.ShapeCasts S64x1
  broadcasts_S64x1_S64x256 : S64x1.Broadcasts S64x256
  inb_S1x64x256_S1x64x256_0_0_0 : ∀ a, (![0, 0, 0] : Fin 3 → Nat) a + S1x64x256.size a ≤ S1x64x256.size a
  h_S1x64x256 : 0 < S1x64x256.numel
  shapeCasts_S1x64x256_S64x256 : S1x64x256.ShapeCasts S64x256
  shapeCasts_S64x256_S1x64x256 : S64x256.ShapeCasts S1x64x256
  dot_S2048x9_S9x128_S2048x128_1_0_0_1_n_n_wf : DotDims.WF S2048x9 S9x128 S2048x128 [1] [0] [0] [1] [] []
  dot_S2048x256_S256x128_S2048x128_1_0_0_1_n_n_wf : DotDims.WF S2048x256 S256x128 S2048x128 [1] [0] [0] [1] [] []
  dot_S2048x128_S128x128_S2048x128_1_0_0_1_n_n_wf : DotDims.WF S2048x128 S128x128 S2048x128 [1] [0] [0] [1] [] []
  dot_S64x128_S128x128_S64x128_1_0_0_1_n_n_wf : DotDims.WF S64x128 S128x128 S64x128 [1] [0] [0] [1] [] []
  dot_S64x128_S128x256_S64x256_1_0_0_1_n_n_wf : DotDims.WF S64x128 S128x256 S64x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x32x9.size a ≤ S16x768x32x9.size a
  hwx0_0 : ∀ i : grid0.Coords, EltTy.bits .f32 = 32 ∨ (Rect.block (s := S16x768x32x9) S1x64x32x9.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x32.size a ≤ S16x768x32.size a
  hwx0_1 : ∀ i : grid0.Coords, EltTy.bits .f32 = 32 ∨ (Rect.block (s := S16x768x32) S1x64x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x9.size a ≤ S128x9.size a
  hwx0_2 : ∀ i : grid0.Coords, EltTy.bits .f32 = 32 ∨ (Rect.block (s := S128x9) S128x9.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x256.size a ≤ S128x256.size a
  hwx0_7 : ∀ i : grid0.Coords, EltTy.bits .f32 = 32 ∨ (Rect.block (s := S128x256) S128x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S128.size a
  hwx0_8 : ∀ i : grid0.Coords, EltTy.bits .f32 = 32 ∨ (Rect.block (s := S128) S128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128.size a ≤ S128.size a
  hwx0_9 : ∀ i : grid0.Coords, EltTy.bits .f32 = 32 ∨ (Rect.block (s := S128) S128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128.size a ≤ S128.size a
  hwx0_10 : ∀ i : grid0.Coords, EltTy.bits .f32 = 32 ∨ (Rect.block (s := S128) S128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128.size a ≤ S128.size a
  hwx0_11 : ∀ i : grid0.Coords, EltTy.bits .f32 = 32 ∨ (Rect.block (s := S128) S128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S128x128.size a ≤ S128x128.size a
  hwx0_12 : ∀ i : grid0.Coords, EltTy.bits .f32 = 32 ∨ (Rect.block (s := S128x128) S128x128.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S128.size a ≤ S128.size a
  hwx0_13 : ∀ i : grid0.Coords, EltTy.bits .f32 = 32 ∨ (Rect.block (s := S128) S128.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S128.size a ≤ S128.size a
  hwx0_14 : ∀ i : grid0.Coords, EltTy.bits .f32 = 32 ∨ (Rect.block (s := S128) S128.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S128.size a ≤ S128.size a
  hwx0_15 : ∀ i : grid0.Coords, EltTy.bits .f32 = 32 ∨ (Rect.block (s := S128) S128.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S128.size a ≤ S128.size a
  hwx0_16 : ∀ i : grid0.Coords, EltTy.bits .f32 = 32 ∨ (Rect.block (s := S128) S128.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S128x128.size a ≤ S128x128.size a
  hwx0_17 : ∀ i : grid0.Coords, EltTy.bits .f32 = 32 ∨ (Rect.block (s := S128x128) S128x128.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S128.size a ≤ S128.size a
  hwx0_18 : ∀ i : grid0.Coords, EltTy.bits .f32 = 32 ∨ (Rect.block (s := S128) S128.size (cc0_transform_18 i) (hinb0_18 i)).WholeWords (EltTy.packing .f32)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S256x128.size a ≤ S256x128.size a
  hwx0_19 : ∀ i : grid0.Coords, EltTy.bits .f32 = 32 ∨ (Rect.block (s := S256x128) S256x128.size (cc0_transform_19 i) (hinb0_19 i)).WholeWords (EltTy.packing .f32)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S256.size a ≤ S256.size a
  hwx0_20 : ∀ i : grid0.Coords, EltTy.bits .f32 = 32 ∨ (Rect.block (s := S256) S256.size (cc0_transform_20 i) (hinb0_20 i)).WholeWords (EltTy.packing .f32)
  hstage0_21 : ∀ j, (stage0_21 j).IsWhole
  nbuf0_21 : grid0.bufCount reads0_21 false = 2
  hreads0_21 : ∀ i i' : grid0.Coords, (∀ a, reads0_21 a = true → i a = i' a) → cc0_transform_21 i = cc0_transform_21 i'
  hinb0_21 : ∀ (i : grid0.Coords) a, (cc0_transform_21 i a + 1) * S1x64x256.size a ≤ S16x768x256.size a
  hwx0_21 : ∀ i : grid0.Coords, EltTy.bits .f32 = 32 ∨ (Rect.block (s := S16x768x256) S1x64x256.size (cc0_transform_21 i) (hinb0_21 i)).WholeWords (EltTy.packing .f32)

variable [Facts₀]

def dot_S2048x9_S9x128_S2048x128_1_0_0_1_n_n : DotDims S2048x9 S9x128 S2048x128 where
  lhsContracting := [1]
  rhsContracting := [0]
  lhsNonContracting := [0]
  rhsNonContracting := [1]
  lhsBatch := []
  rhsBatch := []
  wf := dot_S2048x9_S9x128_S2048x128_1_0_0_1_n_n_wf
def dot_S2048x256_S256x128_S2048x128_1_0_0_1_n_n : DotDims S2048x256 S256x128 S2048x128 where
  lhsContracting := [1]
  rhsContracting := [0]
  lhsNonContracting := [0]
  rhsNonContracting := [1]
  lhsBatch := []
  rhsBatch := []
  wf := dot_S2048x256_S256x128_S2048x128_1_0_0_1_n_n_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def dot_S64x128_S128x128_S64x128_1_0_0_1_n_n : DotDims S64x128 S128x128 S64x128 where
  lhsContracting := [1]
  rhsContracting := [0]
  lhsNonContracting := [0]
  rhsNonContracting := [1]
  lhsBatch := []
  rhsBatch := []
  wf := dot_S64x128_S128x128_S64x128_1_0_0_1_n_n_wf
def dot_S64x128_S128x256_S64x256_1_0_0_1_n_n : DotDims S64x128 S128x256 S64x256 where
  lhsContracting := [1]
  rhsContracting := [0]
  lhsNonContracting := [0]
  rhsNonContracting := [1]
  lhsBatch := []
  rhsBatch := []
  wf := dot_S64x128_S128x256_S64x256_1_0_0_1_n_n_wf

abbrev win0_0 : Pipeline.Window sig grid0 :=
  Pipeline.Window.ofSpec (Memref.whole main_arg0) S1x64x32x9.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x64x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x9.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S128x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S128x128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg13) S128.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg14) S128.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg15) S128.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_arg16) S128.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_arg17) S128x128.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_arg18) S128.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_arg19) S256x128.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_arg20) S256.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_v1) S1x64x256.size cc0_transform_21 reads0_21 true false 2 stage0_21 sem0_21
    hrank0 hreads0_21 hinb0_21 nbuf0_21 (Memref.isWhole_whole _) hwx0_21 hstage0_21

abbrev win0 : Fin 22 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | ⟨_ + 22, h⟩ => absurd h (Nat.not_lt.2 (Nat.le_add_left _ _))
abbrev spec0 : Fin 22 → Pipeline.WinSpec sig grid0.rank := fun w => (win0 w).toWinSpec

class Facts : Prop extends Facts₀ where

variable [Facts]
-- ==== ReferenceIdeal.lean ====
abbrev S16x768x32x9 : Shape := ⟨4, ![16, 768, 32, 9]⟩
abbrev S16x768x32 : Shape := ⟨3, ![16, 768, 32]⟩
abbrev S128x9 : Shape := ⟨2, ![128, 9]⟩
abbrev S128 : Shape := ⟨1, ![128]⟩
abbrev S128x256 : Shape := ⟨2, ![128, 256]⟩
abbrev S128x128 : Shape := ⟨2, ![128, 128]⟩
abbrev S256x128 : Shape := ⟨2, ![256, 128]⟩
abbrev S256 : Shape := ⟨1, ![256]⟩
abbrev S16x768x32x1 : Shape := ⟨4, ![16, 768, 32, 1]⟩
abbrev S16x768x32x128 : Shape := ⟨4, ![16, 768, 32, 128]⟩
abbrev S1x1x1x128 : Shape := ⟨4, ![1, 1, 1, 128]⟩
abbrev S_ : Shape := ⟨0, ![]⟩
abbrev S16x768x128 : Shape := ⟨3, ![16, 768, 128]⟩
abbrev S16x768x1x128 : Shape := ⟨4, ![16, 768, 1, 128]⟩
abbrev S16x768x32x256 : Shape := ⟨4, ![16, 768, 32, 256]⟩
abbrev S16x768 : Shape := ⟨2, ![16, 768]⟩
abbrev S1x1x128 : Shape := ⟨3, ![1, 1, 128]⟩
abbrev S16x768x256 : Shape := ⟨3, ![16, 768, 256]⟩
abbrev S1x1x256 : Shape := ⟨3, ![1, 1, 256]⟩
abbrev S16x768x1 : Shape := ⟨3, ![16, 768, 1]⟩

abbrev nBuf : Space → Nat
  | .hbm => 112
  | .vmem => 0
  | .smem => 0
  | _ => 0

abbrev bufTy : (tb : Table) → Fin (tcTables nBuf tb) → BufTy
  | .hbm, ⟨0, _⟩ => ⟨S16x768x32x9, .f32⟩
  | .hbm, ⟨1, _⟩ => ⟨S16x768x32, .i1⟩
  | .hbm, ⟨2, _⟩ => ⟨S128x9, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128x256, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S128, .f32⟩
  | .hbm, ⟨15, _⟩ => ⟨S128, .f32⟩
  | .hbm, ⟨16, _⟩ => ⟨S128, .f32⟩
  | .hbm, ⟨17, _⟩ => ⟨S128x128, .f32⟩
  | .hbm, ⟨18, _⟩ => ⟨S128, .f32⟩
  | .hbm, ⟨19, _⟩ => ⟨S256x128, .f32⟩
  | .hbm, ⟨20, _⟩ => ⟨S256, .f32⟩
  | .hbm, ⟨21, _⟩ => ⟨S16x768x32x1, .i1⟩
  | .hbm, ⟨22, _⟩ => ⟨S16x768x32x128, .f32⟩
  | .hbm, ⟨23, _⟩ => ⟨S1x1x1x128, .f32⟩
  | .hbm, ⟨24, _⟩ => ⟨S16x768x32x128, .f32⟩
  | .hbm, ⟨25, _⟩ => ⟨S16x768x32x128, .f32⟩
  | .hbm, ⟨26, _⟩ => ⟨S_, .f32⟩
  | .hbm, ⟨27, _⟩ => ⟨S128, .f32⟩
  | .hbm, ⟨28, _⟩ => ⟨S128, .f32⟩
  | .hbm, ⟨29, _⟩ => ⟨S128, .f32⟩
  | .hbm, ⟨30, _⟩ => ⟨S128, .f32⟩
  | .hbm, ⟨31, _⟩ => ⟨S1x1x1x128, .f32⟩
  | .hbm, ⟨32, _⟩ => ⟨S16x768x32x128, .f32⟩
  | .hbm, ⟨33, _⟩ => ⟨S16x768x32x128, .f32⟩
  | .hbm, ⟨34, _⟩ => ⟨S1x1x1x128, .f32⟩
  | .hbm, ⟨35, _⟩ => ⟨S16x768x32x128, .f32⟩
  | .hbm, ⟨36, _⟩ => ⟨S16x768x32x128, .f32⟩
  | .hbm, ⟨37, _⟩ => ⟨S_, .f32⟩
  | .hbm, ⟨38, _⟩ => ⟨S16x768x32x128, .f32⟩
  | .hbm, ⟨39, _⟩ => ⟨S16x768x32x128, .f32⟩
  | .hbm, ⟨40, _⟩ => ⟨S_, .f32⟩
  | .hbm, ⟨41, _⟩ => ⟨S_, .f32⟩
  | .hbm, ⟨42, _⟩ => ⟨S16x768x32x128, .i1⟩
  | .hbm, ⟨43, _⟩ => ⟨S16x768x32x128, .f32⟩
  | .hbm, ⟨44, _⟩ => ⟨S16x768x32x128, .f32⟩
  | .hbm, ⟨45, _⟩ => ⟨S_, .f32⟩
  | .hbm, ⟨46, _⟩ => ⟨S16x768x128, .f32⟩
  | .hbm, ⟨47, _⟩ => ⟨S16x768x1x128, .f32⟩
  | .hbm, ⟨48, _⟩ => ⟨S16x768x32x128, .f32⟩
  | .hbm, ⟨49, _⟩ => ⟨S16x768x32x256, .f32⟩
  | .hbm, ⟨50, _⟩ => ⟨S16x768x32x128, .f32⟩
  | .hbm, ⟨51, _⟩ => ⟨S1x1x1x128, .f32⟩
  | .hbm, ⟨52, _⟩ => ⟨S16x768x32x128, .f32⟩
  | .hbm, ⟨53, _⟩ => ⟨S16x768x32x128, .f32⟩
  | .hbm, ⟨54, _⟩ => ⟨S_, .f32⟩
  | .hbm, ⟨55, _⟩ => ⟨S128, .f32⟩
  | .hbm, ⟨56, _⟩ => ⟨S128, .f32⟩
  | .hbm, ⟨57, _⟩ => ⟨S128, .f32⟩
  | .hbm, ⟨58, _⟩ => ⟨S128, .f32⟩
  | .hbm, ⟨59, _⟩ => ⟨S1x1x1x128, .f32⟩
  | .hbm, ⟨60, _⟩ => ⟨S16x768x32x128, .f32⟩
  | .hbm, ⟨61, _⟩ => ⟨S16x768x32x128, .f32⟩
  | .hbm, ⟨62, _⟩ => ⟨S1x1x1x128, .f32⟩
  | .hbm, ⟨63, _⟩ => ⟨S16x768x32x128, .f32⟩
  | .hbm, ⟨64, _⟩ => ⟨S16x768x32x128, .f32⟩
  | .hbm, ⟨65, _⟩ => ⟨S_, .f32⟩
  | .hbm, ⟨66, _⟩ => ⟨S16x768x32x128, .f32⟩
  | .hbm, ⟨67, _⟩ => ⟨S16x768x32x128, .f32⟩
  | .hbm, ⟨68, _⟩ => ⟨S16x768x32x128, .f32⟩
  | .hbm, ⟨69, _⟩ => ⟨S1x1x1x128, .f32⟩
  | .hbm, ⟨70, _⟩ => ⟨S16x768x32x128, .f32⟩
  | .hbm, ⟨71, _⟩ => ⟨S16x768x32x128, .f32⟩
  | .hbm, ⟨72, _⟩ => ⟨S_, .f32⟩
  | .hbm, ⟨73, _⟩ => ⟨S128, .f32⟩
  | .hbm, ⟨74, _⟩ => ⟨S128, .f32⟩
  | .hbm, ⟨75, _⟩ => ⟨S128, .f32⟩
  | .hbm, ⟨76, _⟩ => ⟨S128, .f32⟩
  | .hbm, ⟨77, _⟩ => ⟨S1x1x1x128, .f32⟩
  | .hbm, ⟨78, _⟩ => ⟨S16x768x32x128, .f32⟩
  | .hbm, ⟨79, _⟩ => ⟨S16x768x32x128, .f32⟩
  | .hbm, ⟨80, _⟩ => ⟨S1x1x1x128, .f32⟩
  | .hbm, ⟨81, _⟩ => ⟨S16x768x32x128, .f32⟩
  | .hbm, ⟨82, _⟩ => ⟨S16x768x32x128, .f32⟩
  | .hbm, ⟨83, _⟩ => ⟨S_, .f32⟩
  | .hbm, ⟨84, _⟩ => ⟨S16x768x32x128, .f32⟩
  | .hbm, ⟨85, _⟩ => ⟨S16x768x32x128, .f32⟩
  | .hbm, ⟨86, _⟩ => ⟨S_, .f32⟩
  | .hbm, ⟨87, _⟩ => ⟨S_, .f32⟩
  | .hbm, ⟨88, _⟩ => ⟨S16x768x32x128, .i1⟩
  | .hbm, ⟨89, _⟩ => ⟨S16x768x32x128, .f32⟩
  | .hbm, ⟨90, _⟩ => ⟨S16x768x32x128, .f32⟩
  | .hbm, ⟨91, _⟩ => ⟨S_, .f32⟩
  | .hbm, ⟨92, _⟩ => ⟨S16x768x128, .f32⟩
  | .hbm, ⟨93, _⟩ => ⟨S_, .i1⟩
  | .hbm, ⟨94, _⟩ => ⟨S16x768, .i1⟩
  | .hbm, ⟨95, _⟩ => ⟨S16x768x128, .f32⟩
  | .hbm, ⟨96, _⟩ => ⟨S1x1x128, .f32⟩
  | .hbm, ⟨97, _⟩ => ⟨S16x768x128, .f32⟩
  | .hbm, ⟨98, _⟩ => ⟨S16x768x128, .f32⟩
  | .hbm, ⟨99, _⟩ => ⟨S_, .f32⟩
  | .hbm, ⟨100, _⟩ => ⟨S16x768x128, .f32⟩
  | .hbm, ⟨101, _⟩ => ⟨S16x768x128, .f32⟩
  | .hbm, ⟨102, _⟩ => ⟨S16x768x256, .f32⟩
  | .hbm, ⟨103, _⟩ => ⟨S1x1x256, .f32⟩
  | .hbm, ⟨104, _⟩ => ⟨S16x768x256, .f32⟩
  | .hbm, ⟨105, _⟩ => ⟨S16x768x256, .f32⟩
  | .hbm, ⟨106, _⟩ => ⟨S16x768x1, .i1⟩
  | .hbm, ⟨107, _⟩ => ⟨S_, .f32⟩
  | .hbm, ⟨108, _⟩ => ⟨S_, .f32⟩
  | .hbm, ⟨109, _⟩ => ⟨S16x768x256, .i1⟩
  | .hbm, ⟨110, _⟩ => ⟨S16x768x256, .f32⟩
  | .hbm, ⟨111, _⟩ => ⟨S16x768x256, .f32⟩
  | _, _ => ⟨S16x768x32x9, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_cst : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_call0_cst : Ref sig .tc := ⟨.hbm, 37, rfl⟩
abbrev main_call0_v0 : Ref sig .tc := ⟨.hbm, 38, rfl⟩
abbrev main_v15 : Ref sig .tc := ⟨.hbm, 39, rfl⟩
abbrev main_cst_0 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_v16 : Ref sig .tc := ⟨.hbm, 44, rfl⟩
abbrev main_cst_1 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_cst_2 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_call2_cst : Ref sig .tc := ⟨.hbm, 65, rfl⟩
abbrev main_call2_v0 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_cst_3 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_call3_cst : Ref sig .tc := ⟨.hbm, 83, rfl⟩
abbrev main_call3_v0 : Ref sig .tc := ⟨.hbm, 84, rfl⟩
abbrev main_v50 : Ref sig .tc := ⟨.hbm, 85, rfl⟩
abbrev main_cst_4 : Ref sig .tc := ⟨.hbm, 86, rfl⟩
abbrev main_call4_v0 : Ref sig .tc := ⟨.hbm, 87, rfl⟩
abbrev main_call4_v1 : Ref sig .tc := ⟨.hbm, 88, rfl⟩
abbrev main_call4_v2 : Ref sig .tc := ⟨.hbm, 89, rfl⟩
abbrev main_v51 : Ref sig .tc := ⟨.hbm, 90, rfl⟩
abbrev main_cst_5 : Ref sig .tc := ⟨.hbm, 91, rfl⟩
abbrev main_v52 : Ref sig .tc := ⟨.hbm, 92, rfl⟩
abbrev main_c : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_call5_cst : Ref sig .tc := ⟨.hbm, 99, rfl⟩
abbrev main_call5_v0 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_cst_6 : Ref sig .tc := ⟨.hbm, 107, rfl⟩
abbrev main_call6_v0 : Ref sig .tc := ⟨.hbm, 108, rfl⟩
abbrev main_call6_v1 : Ref sig .tc := ⟨.hbm, 109, rfl⟩
abbrev main_call6_v2 : Ref sig .tc := ⟨.hbm, 110, rfl⟩
abbrev main_v64 : Ref sig .tc := ⟨.hbm, 111, rfl⟩

abbrev nD : Nat := 1
abbrev τ : Topo := Topo.v7x

variable {F : FTy → Type} [FloatOps F]

class Facts₀ : Prop where
  bcast_S16x768x32_S16x768x32x1_0_1_2 : S16x768x32.BroadcastsInDim S16x768x32x1 (![0, 1, 2] : Fin 3 → Fin S16x768x32x1.rank)
  bcast_S128_S1x1x1x128_3 : S128.BroadcastsInDim S1x1x1x128 (![3] : Fin 1 → Fin S1x1x1x128.rank)
  bcast_S1x1x1x128_S16x768x32x128_0_1_2_3 : S1x1x1x128.BroadcastsInDim S16x768x32x128 (![0, 1, 2, 3] : Fin 4 → Fin S16x768x32x128.rank)
  bcast_S_S128 : S_.BroadcastsInDim S128 (![] : Fin 0 → Fin S128.rank)
  bcast_S_S16x768x32x128 : S_.BroadcastsInDim S16x768x32x128 (![] : Fin 0 → Fin S16x768x32x128.rank)
  bcast_S16x768x32x1_S16x768x32x128_0_1_2_3 : S16x768x32x1.BroadcastsInDim S16x768x32x128 (![0, 1, 2, 3] : Fin 4 → Fin S16x768x32x128.rank)
  reducesTo_S16x768x32x128_S16x768x128_d2 : S16x768x32x128.ReducesTo [2] S16x768x128
  h_S_ : 0 < S_.numel
  bcast_S16x768x128_S16x768x1x128_0_1_3 : S16x768x128.BroadcastsInDim S16x768x1x128 (![0, 1, 3] : Fin 3 → Fin S16x768x1x128.rank)
  bcast_S16x768x1x128_S16x768x32x128_0_1_2_3 : S16x768x1x128.BroadcastsInDim S16x768x32x128 (![0, 1, 2, 3] : Fin 4 → Fin S16x768x32x128.rank)
  concatenates_S16x768x32x128_S16x768x32x128_S16x768x32x256_d3 : Shape.Concatenates [S16x768x32x128, S16x768x32x128] S16x768x32x256 3
  reducesTo_S16x768x32_S16x768_d2 : S16x768x32.ReducesTo [2] S16x768
  bcast_S128_S1x1x128_2 : S128.BroadcastsInDim S1x1x128 (![2] : Fin 1 → Fin S1x1x128.rank)
  bcast_S1x1x128_S16x768x128_0_1_2 : S1x1x128.BroadcastsInDim S16x768x128 (![0, 1, 2] : Fin 3 → Fin S16x768x128.rank)
  bcast_S_S16x768x128 : S_.BroadcastsInDim S16x768x128 (![] : Fin 0 → Fin S16x768x128.rank)
  bcast_S256_S1x1x256_2 : S256.BroadcastsInDim S1x1x256 (![2] : Fin 1 → Fin S1x1x256.rank)
  bcast_S1x1x256_S16x768x256_0_1_2 : S1x1x256.BroadcastsInDim S16x768x256 (![0, 1, 2] : Fin 3 → Fin S16x768x256.rank)
  bcast_S16x768_S16x768x1_0_1 : S16x768.BroadcastsInDim S16x768x1 (![0, 1] : Fin 2 → Fin S16x768x1.rank)
  bcast_S16x768x1_S16x768x256_0_1_2 : S16x768x1.BroadcastsInDim S16x768x256 (![0, 1, 2] : Fin 3 → Fin S16x768x256.rank)
  bcast_S_S16x768x256 : S_.BroadcastsInDim S16x768x256 (![] : Fin 0 → Fin S16x768x256.rank)
  dot_S16x768x32x9_S128x9_S16x768x32x128_3_1_012_0_n_n_wf : DotDims.WF S16x768x32x9 S128x9 S16x768x32x128 [3] [1] [0, 1, 2] [0] [] []
  dot_S16x768x32x256_S128x256_S16x768x32x128_3_1_012_0_n_n_wf : DotDims.WF S16x768x32x256 S128x256 S16x768x32x128 [3] [1] [0, 1, 2] [0] [] []
  dot_S16x768x32x128_S128x128_S16x768x32x128_3_1_012_0_n_n_wf : DotDims.WF S16x768x32x128 S128x128 S16x768x32x128 [3] [1] [0, 1, 2] [0] [] []
  dot_S16x768x128_S128x128_S16x768x128_2_1_01_0_n_n_wf : DotDims.WF S16x768x128 S128x128 S16x768x128 [2] [1] [0, 1] [0] [] []
  dot_S16x768x128_S256x128_S16x768x256_2_1_01_0_n_n_wf : DotDims.WF S16x768x128 S256x128 S16x768x256 [2] [1] [0, 1] [0] [] []

variable [Facts₀]

def dot_S16x768x32x9_S128x9_S16x768x32x128_3_1_012_0_n_n : DotDims S16x768x32x9 S128x9 S16x768x32x128 where
  lhsContracting := [3]
  rhsContracting := [1]
  lhsNonContracting := [0, 1, 2]
  rhsNonContracting := [0]
  lhsBatch := []
  rhsBatch := []
  wf := dot_S16x768x32x9_S128x9_S16x768x32x128_3_1_012_0_n_n_wf
def dot_S16x768x32x256_S128x256_S16x768x32x128_3_1_012_0_n_n : DotDims S16x768x32x256 S128x256 S16x768x32x128 where
  lhsContracting := [3]
  rhsContracting := [1]
  lhsNonContracting := [0, 1, 2]
  rhsNonContracting := [0]
  lhsBatch := []
  rhsBatch := []
  wf := dot_S16x768x32x256_S128x256_S16x768x32x128_3_1_012_0_n_n_wf
def dot_S16x768x32x128_S128x128_S16x768x32x128_3_1_012_0_n_n : DotDims S16x768x32x128 S128x128 S16x768x32x128 where
  lhsContracting := [3]
  rhsContracting := [1]
  lhsNonContracting := [0, 1, 2]
  rhsNonContracting := [0]
  lhsBatch := []
  rhsBatch := []
  wf := dot_S16x768x32x128_S128x128_S16x768x32x128_3_1_012_0_n_n_wf
def dot_S16x768x128_S128x128_S16x768x128_2_1_01_0_n_n : DotDims S16x768x128 S128x128 S16x768x128 where
  lhsContracting := [2]
  rhsContracting := [1]
  lhsNonContracting := [0, 1]
  rhsNonContracting := [0]
  lhsBatch := []
  rhsBatch := []
  wf := dot_S16x768x128_S128x128_S16x768x128_2_1_01_0_n_n_wf
def dot_S16x768x128_S256x128_S16x768x256_2_1_01_0_n_n : DotDims S16x768x128 S256x128 S16x768x256 where
  lhsContracting := [2]
  rhsContracting := [1]
  lhsNonContracting := [0, 1]
  rhsNonContracting := [0]
  lhsBatch := []
  rhsBatch := []
  wf := dot_S16x768x128_S256x128_S16x768x256_2_1_01_0_n_n_wf

class Facts : Prop extends Facts₀ where

variable [Facts]
-- ==== Proof.Spec.lean ====
/-
  The mathematics of the polyline encoder, on plain coordinate functions over the extended reals.

  One polyline is 32 points of 9 coordinates with a validity bit per point. A point's coordinates go through a
  linear map, a batch normalisation with fixed statistics and a rectifier; the features of invalid points are put
  to zero; the features are pooled by a maximum over the points; each point's features are joined with the pooled
  ones; two more such layers follow, the invalid points are put to zero again and pooled again; a two-layer
  perceptron maps the pooled vector to 256 outputs, and a polyline with no valid point gets zeros.

  How "put to zero" is done is a parameter here: `κ n y` is the value kept for point `n` from `y`, and `ν y` the
  value kept for the whole polyline. One program multiplies by the validity bit read as the number 0 or 1, the
  other selects on the bit; `row_mask` says the two give one function.
-/
import Idealize.ShloMosaic.PureOps.Ideal
import Idealize.ShloMosaic.PureOps.Ideal.Laws
import Idealize.ShloMosaic.PureOps.Reduce
import Idealize.ShloMosaic.Lib.ValueIdx

noncomputable section

open scoped BigOperators

namespace Cert.Polyline

open Idealize.ShloMosaic Idealize.ShloMosaic.ValueIdx

/-- The variance offset of the normalisation, as the single-precision pattern both programs carry. -/
def eps : EReal := Ideal.ofBits .f32 0x3727C5AC#32
/-- Zero, as the pattern both programs carry. -/
def z0 : EReal := Ideal.ofBits .f32 0x00000000#32
/-- Minus infinity, the value a maximum starts from. -/
def ninf : EReal := Ideal.ofBits .f32 0xFF800000#32

theorem z0_eq : z0 = 0 := Ideal.ofBits_zero_f32

/-- Point `n` of polyline `r` among a tile's 64 polylines laid out point after point: row `32 r + n` of 2048. -/
def pt (r : Fin 64) (n : Fin 32) : Fin 2048 := ⟨32 * r.val + n.val, by have := r.isLt; have := n.isLt; omega⟩

/-- A linear map without bias followed by the normalisation's shift and scale, before its offset:
    `(∑ₖ aₖ · W o k − m o) · (g o · (v o + ε)^(-1/2))`. -/
def lin {I O : Nat} (W : Fin O → Fin I → EReal) (g m v : Fin O → EReal) (a : Fin I → EReal) (o : Fin O) : EReal :=
  ((∑ k : Fin I, a k * W o k) - m o) * (g o * Ideal.rsqrt (v o + eps))

/-- The whole layer: the offset added and the rectifier applied. -/
def act {I O : Nat} (W : Fin O → Fin I → EReal) (g b m v : Fin O → EReal) (a : Fin I → EReal) (o : Fin O) : EReal :=
  max (lin W g m v a o + b o) z0

/-- The maximum over a polyline's 32 points, from minus infinity. -/
def poolMax (f : Fin 32 → EReal) : EReal := (Finset.univ : Finset (Fin 32)).fold max ninf f

/-- Whether some point of the polyline is valid: the disjunction of the 32 bits. -/
def anyBit (μ : Fin 32 → BitVec 1) : BitVec 1 := (Finset.univ : Finset (Fin 32)).fold IntOp.ori 0#1 μ

/-- The first layer's features of point `n`, invalid points put to zero by `κ`. -/
def feat (κ : Fin 32 → EReal → EReal) (W : Fin 128 → Fin 9 → EReal) (g b m v : Fin 128 → EReal)
    (x : Fin 32 → Fin 9 → EReal) (n : Fin 32) (h : Fin 128) : EReal :=
  κ n (act W g b m v (x n) h)

/-- A point's features joined with the features pooled over the polyline: 128 and 128 channels. -/
def catOf (f : Fin 32 → Fin 128 → EReal) (n : Fin 32) (k : Fin 256) : EReal :=
  if hk : k.val < 128 then f n ⟨k.val, hk⟩ else poolMax fun n' => f n' ⟨k.val - 128, by omega⟩

/-- The second and third layers on the joined features, invalid points put to zero by `κ`. -/
def hid (κ : Fin 32 → EReal → EReal) (W1 : Fin 128 → Fin 256 → EReal) (g1 b1 m1 v1 : Fin 128 → EReal)
    (W2 : Fin 128 → Fin 128 → EReal) (g2 b2 m2 v2 : Fin 128 → EReal)
    (c : Fin 32 → Fin 256 → EReal) (n : Fin 32) (h : Fin 128) : EReal :=
  κ n (act W2 g2 b2 m2 v2 (act W1 g1 b1 m1 v1 (c n)) h)

/-- The output perceptron on the features pooled over the points: a linear layer with bias and rectifier,
    then a linear layer with bias. -/
def head (Wo1 : Fin 128 → Fin 128 → EReal) (bo1 : Fin 128 → EReal) (Wo2 : Fin 256 → Fin 128 → EReal) (bo2 : Fin 256 → EReal)
    (f : Fin 32 → Fin 128 → EReal) (o : Fin 256) : EReal :=
  (∑ h : Fin 128, max ((∑ h' : Fin 128, poolMax (fun n => f n h') * Wo1 h h') + bo1 h) z0 * Wo2 o h) + bo2 o

/-- The encoder's nineteen weight arrays as coordinate functions. -/
structure Weights where
  Wp : Fin 128 → Fin 9 → EReal
  gp : Fin 128 → EReal
  bp : Fin 128 → EReal
  mp : Fin 128 → EReal
  vp : Fin 128 → EReal
  W1 : Fin 128 → Fin 256 → EReal
  g1 : Fin 128 → EReal
  b1 : Fin 128 → EReal
  m1 : Fin 128 → EReal
  v1 : Fin 128 → EReal
  W2 : Fin 128 → Fin 128 → EReal
  g2 : Fin 128 → EReal
  b2 : Fin 128 → EReal
  m2 : Fin 128 → EReal
  v2 : Fin 128 → EReal
  Wo1 : Fin 128 → Fin 128 → EReal
  bo1 : Fin 128 → EReal
  Wo2 : Fin 256 → Fin 128 → EReal
  bo2 : Fin 256 → EReal

/-- The weight arrays, in the order both programs take them, read by coordinates. -/
def weightsOf (a2 : (⟨2, ![128, 9]⟩ : Shape).Idx → EReal) (a3 a4 a5 a6 : (⟨1, ![128]⟩ : Shape).Idx → EReal)
    (a7 : (⟨2, ![128, 256]⟩ : Shape).Idx → EReal) (a8 a9 a10 a11 : (⟨1, ![128]⟩ : Shape).Idx → EReal)
    (a12 : (⟨2, ![128, 128]⟩ : Shape).Idx → EReal) (a13 a14 a15 a16 : (⟨1, ![128]⟩ : Shape).Idx → EReal)
    (a17 : (⟨2, ![128, 128]⟩ : Shape).Idx → EReal) (a18 : (⟨1, ![128]⟩ : Shape).Idx → EReal)
    (a19 : (⟨2, ![256, 128]⟩ : Shape).Idx → EReal) (a20 : (⟨1, ![256]⟩ : Shape).Idx → EReal) : Weights where
  Wp := fun o k => a2 (ix2 o k)
  gp := fun o => a3 (ix1 o)
  bp := fun o => a4 (ix1 o)
  mp := fun o => a5 (ix1 o)
  vp := fun o => a6 (ix1 o)
  W1 := fun o k => a7 (ix2 o k)
  g1 := fun o => a8 (ix1 o)
  b1 := fun o => a9 (ix1 o)
  m1 := fun o => a10 (ix1 o)
  v1 := fun o => a11 (ix1 o)
  W2 := fun o k => a12 (ix2 o k)
  g2 := fun o => a13 (ix1 o)
  b2 := fun o => a14 (ix1 o)
  m2 := fun o => a15 (ix1 o)
  v2 := fun o => a16 (ix1 o)
  Wo1 := fun o k => a17 (ix2 o k)
  bo1 := fun o => a18 (ix1 o)
  Wo2 := fun o k => a19 (ix2 o k)
  bo2 := fun o => a20 (ix1 o)

/-- One polyline's 256 outputs from its 32 × 9 coordinates. -/
def row (P : Weights) (κ : Fin 32 → EReal → EReal) (ν : EReal → EReal) (x : Fin 32 → Fin 9 → EReal) (o : Fin 256) : EReal :=
  ν (head P.Wo1 P.bo1 P.Wo2 P.bo2
      (hid κ P.W1 P.g1 P.b1 P.m1 P.v1 P.W2 P.g2 P.b2 P.m2 P.v2 (catOf (feat κ P.Wp P.gp P.bp P.mp P.vp x))) o)

/-! ## Multiplying by the validity bit as a number is selecting on it -/

/-- A one-bit word read as a number is 1 or 0, and a product with it keeps the value or gives zero: on the extended
    reals too, where `y · 0 = 0` for infinite `y` as well. -/
theorem mul_bit (μ : BitVec 1) (y : EReal) : y * (((μ.toNat : ℝ)) : EReal) = Scalar.select μ y z0 := by
  by_cases h : μ = 1#1
  · subst h; rw [select_one]; simp
  · have h0 := eq_zero_of_ne_one h; subst h0; rw [select_zero, z0_eq]; simp

end Cert.Polyline

end
-- ==== Proof.KPay1.lean ====
/-
  The last part of the kernel's body read at an index: the third layer's offset and rectifier, the mask, the
  maximum over a polyline's points, the output perceptron, and the product with the polyline's validity.
-/
import proofs.«168215_j18511309045816_1_alg».proof.Proof.Gen.KernelIdeal.Skeleton
import proofs.«168215_j18511309045816_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Polyline.Kernel

open Cert.KernelIdeal Cert.KernelIdeal.Gen Idealize.ShloMosaic Idealize.ShloMosaic.ValueIdx Cert.Polyline

namespace Pay1

/-! ## Layout operations the body uses, read at an index given by coordinates -/

section Layout
variable {α : Type}

/-- A column `[a, 1]` broadcast to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The 2048 rows regrouped as 64 polylines of 32 points: `(r, n, c)` reads row `32 r + n`, column `c`. -/
theorem shapeCast_points_apply (x : S2048x128.Idx → α) (h : S2048x128.ShapeCasts S64x32x128)
    (r : Fin 64) (n : Fin 32) (c : Fin 128) : shapeCast S64x32x128 x h (ix3 r n c) = x (ix2 (pt r n) c) :=
  shapeCast_apply x h _ _ (by
    rw [Shape.rowMajor_val_two, Shape.rowMajor_val_three]
    show (32 * r.val + n.val) * 128 + c.val = (r.val * 32 + n.val) * 128 + c.val
    omega)

end Layout

/-- Narrowing to the 16-bit format changes nothing on the extended reals. -/
theorem truncf_bf16_apply {s : Shape} (a : FVec Ideal s .f32) (h : FTy.bits .bf16 < FTy.bits .f32) (i : s.Idx) :
    (truncf .bf16 a h : FVec Ideal s .bf16) i = a i := rfl

/-! ## The two maxima over a polyline's points -/

/-- The maximum over axis 1 of a `[64, 32, 128]` array from minus infinity, at `(r, c)`: the pool of the 32 entries `(r, ·, c)`. -/
theorem pool_points_apply (x : FVec Ideal S64x32x128 .f32) (h : S64x32x128.Reduces [1] S64x128) (hφ : FKind.Formats .f32)
    (hacc : (0xFF800000#32 : BitVec (FTy.bits .f32)) = FKind.maximumf.neutral .f32 hφ) (r : Fin 64) (c : Fin 128) :
    multiReduction (F := Ideal) .maximumf [1] S64x128 x 0xFF800000#32 h hφ hacc (ix2 r c) = poolMax fun n => x (ix3 r n c) := by
  refine (Ideal.multiReduction_maximumf_single x _ h hφ hacc (ix2 r c)).trans ?_
  unfold poolMax ninf
  have e : ∀ n : Fin 32, h.lift (ix2 r c) n = ix3 r n c := fun n => funext fun ax => Fin.ext (by
    match ax with
    | ⟨0, _⟩ => rfl
    | ⟨1, _⟩ => rfl
    | ⟨2, _⟩ => rfl)
  exact congrArg (fun f : Fin 32 → EReal => Finset.fold max (Ideal.ofBits .f32 0xFF800000#32) f Finset.univ)
    (funext fun n => congrArg x (e n))

/-- The maximum over axis 1 of a `[64, 32]` array from minus infinity, at `r`: the pool of row `r`. -/
theorem pool_mask_apply (x : FVec Ideal S64x32 .f32) (h : S64x32.Reduces [1] S64) (hφ : FKind.Formats .f32)
    (hacc : (0xFF800000#32 : BitVec (FTy.bits .f32)) = FKind.maximumf.neutral .f32 hφ) (r : Fin 64) :
    multiReduction (F := Ideal) .maximumf [1] S64 x 0xFF800000#32 h hφ hacc (ix1 r) = poolMax fun n => x (ix2 r n) := by
  refine (Ideal.multiReduction_maximumf_single x _ h hφ hacc (ix1 r)).trans ?_
  unfold poolMax ninf
  have e : ∀ n : Fin 32, h.lift (ix1 r) n = ix2 r n := fun n => funext fun ax => Fin.ext (by
    match ax with
    | ⟨0, _⟩ => rfl
    | ⟨1, _⟩ => rfl)
  exact congrArg (fun f : Fin 32 → EReal => Finset.fold max (Ideal.ofBits .f32 0xFF800000#32) f Finset.univ)
    (funext fun n => congrArg x (e n))

/-! ## The two matrix products into zero, as sums over the contracted coordinate

For each product, first the operand indices' coordinates at an output index and a contraction index: the left operand is read
at (row, contracted), the right one at (contracted, column). -/

theorem lhs_o1_0 (i : S64x128.Idx) (q : dot_S64x128_S128x128_S64x128_1_0_0_1_n_n.contr.Idx) :
    (dot_S64x128_S128x128_S64x128_1_0_0_1_n_n.lhsIdx i q 0).val = (i 0).val := by
  unfold DotDims.lhsIdx
  rw [dif_neg (show ¬(0 : Fin S64x128.rank) ∈ dot_S64x128_S128x128_S64x128_1_0_0_1_n_n.lhsBatch by decide), dif_pos (show (0 : Fin S64x128.rank) ∈ dot_S64x128_S128x128_S64x128_1_0_0_1_n_n.lhsNonContracting by decide)]
  rfl
theorem lhs_o1_1 (i : S64x128.Idx) (q : dot_S64x128_S128x128_S64x128_1_0_0_1_n_n.contr.Idx) :
    (dot_S64x128_S128x128_S64x128_1_0_0_1_n_n.lhsIdx i q 1).val = (q ⟨0, by decide⟩).val :=
  dot_S64x128_S128x128_S64x128_1_0_0_1_n_n.lhsIdx_val_of_single rfl i q
theorem rhs_o1_0 (i : S64x128.Idx) (q : dot_S64x128_S128x128_S64x128_1_0_0_1_n_n.contr.Idx) :
    (dot_S64x128_S128x128_S64x128_1_0_0_1_n_n.rhsIdx i q 0).val = (q ⟨0, by decide⟩).val :=
  dot_S64x128_S128x128_S64x128_1_0_0_1_n_n.rhsIdx_val_of_single rfl i q
theorem rhs_o1_1 (i : S64x128.Idx) (q : dot_S64x128_S128x128_S64x128_1_0_0_1_n_n.contr.Idx) :
    (dot_S64x128_S128x128_S64x128_1_0_0_1_n_n.rhsIdx i q 1).val = (i 1).val := by
  unfold DotDims.rhsIdx
  rw [dif_neg (show ¬(1 : Fin S128x128.rank) ∈ dot_S64x128_S128x128_S64x128_1_0_0_1_n_n.rhsBatch by decide), dif_pos (show (1 : Fin S128x128.rank) ∈ dot_S64x128_S128x128_S64x128_1_0_0_1_n_n.rhsNonContracting by decide)]
  rfl

/-- The first product of the output perceptron, `[64, 128] × [128, 128]` into zero, at `(r, c)`. -/
theorem matmul_o1_apply (A : FVec Ideal S64x128 .bf16) (B : FVec Ideal S128x128 .bf16) (r : Fin 64) (c : Fin 128) :
    matmul dot_S64x128_S128x128_S64x128_1_0_0_1_n_n none A B (constant (F := Ideal) S64x128 .f32 0x00000000#32) (ix2 r c)
      = ∑ k : Fin 128, A (ix2 r k) * B (ix2 k c) := by
  refine (Ideal.matmul_constant_zero_apply dot_S64x128_S128x128_S64x128_1_0_0_1_n_n none A B (ix2 r c)).trans ?_
  rw [← Equiv.sum_comp (contrEquiv1 dot_S64x128_S128x128_S64x128_1_0_0_1_n_n 128 rfl rfl).symm]
  refine Finset.sum_congr rfl fun k _ => ?_
  have hk := contrEquiv1_symm_val dot_S64x128_S128x128_S64x128_1_0_0_1_n_n 128 rfl rfl k
  have el : dot_S64x128_S128x128_S64x128_1_0_0_1_n_n.lhsIdx (ix2 r c) ((contrEquiv1 dot_S64x128_S128x128_S64x128_1_0_0_1_n_n 128 rfl rfl).symm k) = ix2 r k := funext fun a => Fin.ext (by
    match a with
    | ⟨0, _⟩ => exact lhs_o1_0 _ _
    | ⟨1, _⟩ => exact (lhs_o1_1 _ _).trans hk)
  have er : dot_S64x128_S128x128_S64x128_1_0_0_1_n_n.rhsIdx (ix2 r c) ((contrEquiv1 dot_S64x128_S128x128_S64x128_1_0_0_1_n_n 128 rfl rfl).symm k) = ix2 k c := funext fun a => Fin.ext (by
    match a with
    | ⟨0, _⟩ => exact (rhs_o1_0 _ _).trans hk
    | ⟨1, _⟩ => exact rhs_o1_1 _ _)
  rw [el, er]

theorem lhs_o2_0 (i : S64x256.Idx) (q : dot_S64x128_S128x256_S64x256_1_0_0_1_n_n.contr.Idx) :
    (dot_S64x128_S128x256_S64x256_1_0_0_1_n_n.lhsIdx i q 0).val = (i 0).val := by
  unfold DotDims.lhsIdx
  rw [dif_neg (show ¬(0 : Fin S64x128.rank) ∈ dot_S64x128_S128x256_S64x256_1_0_0_1_n_n.lhsBatch by decide), dif_pos (show (0 : Fin S64x128.rank) ∈ dot_S64x128_S128x256_S64x256_1_0_0_1_n_n.lhsNonContracting by decide)]
  rfl
theorem lhs_o2_1 (i : S64x256.Idx) (q : dot_S64x128_S128x256_S64x256_1_0_0_1_n_n.contr.Idx) :
    (dot_S64x128_S128x256_S64x256_1_0_0_1_n_n.lhsIdx i q 1).val = (q ⟨0, by decide⟩).val :=
  dot_S64x128_S128x256_S64x256_1_0_0_1_n_n.lhsIdx_val_of_single rfl i q
theorem rhs_o2_0 (i : S64x256.Idx) (q : dot_S64x128_S128x256_S64x256_1_0_0_1_n_n.contr.Idx) :
    (dot_S64x128_S128x256_S64x256_1_0_0_1_n_n.rhsIdx i q 0).val = (q ⟨0, by decide⟩).val :=
  dot_S64x128_S128x256_S64x256_1_0_0_1_n_n.rhsIdx_val_of_single rfl i q
theorem rhs_o2_1 (i : S64x256.Idx) (q : dot_S64x128_S128x256_S64x256_1_0_0_1_n_n.contr.Idx) :
    (dot_S64x128_S128x256_S64x256_1_0_0_1_n_n.rhsIdx i q 1).val = (i 1).val := by
  unfold DotDims.rhsIdx
  rw [dif_neg (show ¬(1 : Fin S128x256.rank) ∈ dot_S64x128_S128x256_S64x256_1_0_0_1_n_n.rhsBatch by decide), dif_pos (show (1 : Fin S128x256.rank) ∈ dot_S64x128_S128x256_S64x256_1_0_0_1_n_n.rhsNonContracting by decide)]
  rfl

/-- The second product of the output perceptron, `[64, 128] × [128, 256]` into zero, at `(r, c)`. -/
theorem matmul_o2_apply (A : FVec Ideal S64x128 .bf16) (B : FVec Ideal S128x256 .bf16) (r : Fin 64) (c : Fin 256) :
    matmul dot_S64x128_S128x256_S64x256_1_0_0_1_n_n none A B (constant (F := Ideal) S64x256 .f32 0x00000000#32) (ix2 r c)
      = ∑ k : Fin 128, A (ix2 r k) * B (ix2 k c) := by
  refine (Ideal.matmul_constant_zero_apply dot_S64x128_S128x256_S64x256_1_0_0_1_n_n none A B (ix2 r c)).trans ?_
  rw [← Equiv.sum_comp (contrEquiv1 dot_S64x128_S128x256_S64x256_1_0_0_1_n_n 128 rfl rfl).symm]
  refine Finset.sum_congr rfl fun k _ => ?_
  have hk := contrEquiv1_symm_val dot_S64x128_S128x256_S64x256_1_0_0_1_n_n 128 rfl rfl k
  have el : dot_S64x128_S128x256_S64x256_1_0_0_1_n_n.lhsIdx (ix2 r c) ((contrEquiv1 dot_S64x128_S128x256_S64x256_1_0_0_1_n_n 128 rfl rfl).symm k) = ix2 r k := funext fun a => Fin.ext (by
    match a with
    | ⟨0, _⟩ => exact lhs_o2_0 _ _
    | ⟨1, _⟩ => exact (lhs_o2_1 _ _).trans hk)
  have er : dot_S64x128_S128x256_S64x256_1_0_0_1_n_n.rhsIdx (ix2 r c) ((contrEquiv1 dot_S64x128_S128x256_S64x256_1_0_0_1_n_n 128 rfl rfl).symm k) = ix2 k c := funext fun a => Fin.ext (by
    match a with
    | ⟨0, _⟩ => exact (rhs_o2_0 _ _).trans hk
    | ⟨1, _⟩ => exact rhs_o2_1 _ _)
  rw [el, er]

end Pay1

open Pay1

/-! ## The stored tile -/

/-- Polyline `r`, output `o` of the stored tile. -/
theorem pay1_apply (v29 : FVec Ideal S2048x1 .f32) (v81 v83 : FVec Ideal S2048x128 .f32) (w17 : FVec Ideal S128x128 .f32)
    (w18 : FVec Ideal S128 .f32) (w19 : FVec Ideal S256x128 .f32) (w20 : FVec Ideal S256 .f32) (v111 : FVec Ideal S1x64x32 .f32)
    (r : Fin 64) (o : Fin 256) :
    k0_pay1 (F := Ideal) v29 v81 v83 w17 w18 w19 w20 v111 (ix3 (0 : Fin 1) r o)
      = head (fun o k => w17 (ix2 o k)) (fun o => w18 (ix1 o)) (fun o k => w19 (ix2 o k)) (fun o => w20 (ix1 o))
          (fun n h => max (v81 (ix2 (pt r n) h) + v83 (ix2 (pt r n) h)) z0 * v29 (ix2 (pt r n) (0 : Fin 1))) o
        * poolMax (fun n => v111 (ix3 (0 : Fin 1) r n)) := by
  unfold k0_pay1 head
  refine (shapeCast_ab_1ab_apply _ _ (0 : Fin 1) r o).trans ?_
  refine (mulf_apply _ _ _).trans ?_
  refine congrArg₂ (fun a b : EReal => a * b) ?_ ?_
  · refine (addf_apply _ _ _).trans ?_
    refine congrArg₂ (fun a b : EReal => a + b) ?_ ?_
    · refine (matmul_o2_apply _ _ r o).trans ?_
      refine Finset.sum_congr rfl fun h _ => ?_
      refine congrArg₂ (fun a b : EReal => a * b) ?_ ?_
      · refine (truncf_bf16_apply _ _ _).trans ?_
        refine (maximumf_apply _ _ _).trans ?_
        refine congrArg₂ (fun a b : EReal => max a b) ?_ rfl
        refine (addf_apply _ _ _).trans ?_
        refine congrArg₂ (fun a b : EReal => a + b) ?_ ?_
        · refine (matmul_o1_apply _ _ r h).trans ?_
          refine Finset.sum_congr rfl fun h' _ => ?_
          refine congrArg₂ (fun a b : EReal => a * b) ?_ ?_
          · refine (truncf_bf16_apply _ _ _).trans ?_
            refine (pool_points_apply _ _ _ _ r h').trans ?_
            refine congrArg poolMax (funext fun n => ?_)
            refine (shapeCast_points_apply _ _ r n h').trans ?_
            refine (mulf_apply _ _ _).trans ?_
            exact congrArg (fun b : EReal => max (v81 (ix2 (pt r n) h') + v83 (ix2 (pt r n) h')) z0 * b)
              (broadcastTo_a1_ab_apply v29 _ (pt r n) h')
          · exact transpose_ix2_apply _ _ h' h
        · exact (broadcastTo_1b_ab_apply _ _ r h).trans (shapeCast_a_1a_apply w18 _ 0 h)
      · exact transpose_ix2_apply _ _ h o
    · exact (broadcastTo_1b_ab_apply _ _ r o).trans (shapeCast_a_1a_apply w20 _ 0 o)
  · refine (broadcastTo_a1_ab_apply _ _ r o).trans ?_
    refine (shapeCast_a_a1_apply _ _ r 0).trans ?_
    refine (pool_mask_apply _ _ _ _ r).trans ?_
    exact congrArg poolMax (funext fun n => shapeCast_1ab_ab_apply v111 _ r n)

end Cert.Polyline.Kernel

end
-- ==== Proof.KPay3.lean ====
/-
  The first part of the kernel's body read at an index: the mask column, and the joined features
  (a point's first-layer features beside the features pooled over its polyline).
-/
import proofs.«168215_j18511309045816_1_alg».proof.Proof.Gen.KernelIdeal.Skeleton
import proofs.«168215_j18511309045816_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Polyline.Kernel

open Cert.KernelIdeal Cert.KernelIdeal.Gen Idealize.ShloMosaic Idealize.ShloMosaic.ValueIdx Cert.Polyline

/-- The mask laid out as a column of 2048 rows: row `32 r + n` holds the mask of point `n` of polyline `r`. -/
theorem pay2_apply (v27 : FVec Ideal S1x64x32 .f32) (r : Fin 64) (n : Fin 32) :
    k0_pay2 (F := Ideal) v27 (ix2 (pt r n) (0 : Fin 1)) = v27 (ix3 (0 : Fin 1) r n) := by
  unfold k0_pay2
  refine (shapeCast_apply _ shapeCasts_S64x32_S2048x1 _ (ix2 r n) ?_).trans ?_
  · rw [Shape.rowMajor_val_two, Shape.rowMajor_val_two]
    show r.val * 32 + n.val = (32 * r.val + n.val) * 1 + 0
    omega
  · refine shapeCast_apply _ shapeCasts_S1x64x32_S64x32 _ (ix3 (0 : Fin 1) r n) ?_
    rw [Shape.rowMajor_val_three, Shape.rowMajor_val_two]
    show (0 * 64 + r.val) * 32 + n.val = r.val * 32 + n.val
    omega

namespace Pay3

/-! ## The matrix product read at an index -/

theorem lhs_mm_0 (i : S2048x128.Idx) (q : dot_S2048x9_S9x128_S2048x128_1_0_0_1_n_n.contr.Idx) :
    (dot_S2048x9_S9x128_S2048x128_1_0_0_1_n_n.lhsIdx i q 0).val = (i 0).val := by
  unfold DotDims.lhsIdx
  rw [dif_neg (show ¬(0 : Fin S2048x9.rank) ∈ dot_S2048x9_S9x128_S2048x128_1_0_0_1_n_n.lhsBatch by decide), dif_pos (show (0 : Fin S2048x9.rank) ∈ dot_S2048x9_S9x128_S2048x128_1_0_0_1_n_n.lhsNonContracting by decide)]
  rfl
theorem lhs_mm_1 (i : S2048x128.Idx) (q : dot_S2048x9_S9x128_S2048x128_1_0_0_1_n_n.contr.Idx) :
    (dot_S2048x9_S9x128_S2048x128_1_0_0_1_n_n.lhsIdx i q 1).val = (q ⟨0, by decide⟩).val :=
  dot_S2048x9_S9x128_S2048x128_1_0_0_1_n_n.lhsIdx_val_of_single rfl i q
theorem rhs_mm_0 (i : S2048x128.Idx) (q : dot_S2048x9_S9x128_S2048x128_1_0_0_1_n_n.contr.Idx) :
    (dot_S2048x9_S9x128_S2048x128_1_0_0_1_n_n.rhsIdx i q 0).val = (q ⟨0, by decide⟩).val :=
  dot_S2048x9_S9x128_S2048x128_1_0_0_1_n_n.rhsIdx_val_of_single rfl i q
theorem rhs_mm_1 (i : S2048x128.Idx) (q : dot_S2048x9_S9x128_S2048x128_1_0_0_1_n_n.contr.Idx) :
    (dot_S2048x9_S9x128_S2048x128_1_0_0_1_n_n.rhsIdx i q 1).val = (i 1).val := by
  unfold DotDims.rhsIdx
  rw [dif_neg (show ¬(1 : Fin S9x128.rank) ∈ dot_S2048x9_S9x128_S2048x128_1_0_0_1_n_n.rhsBatch by decide), dif_pos (show (1 : Fin S9x128.rank) ∈ dot_S2048x9_S9x128_S2048x128_1_0_0_1_n_n.rhsNonContracting by decide)]
  rfl

/-- A [2048,9] by [9,128] product into a zero accumulator, at row `p` and column `c`: the sum over the nine
    contracted coordinates. -/
theorem mm_apply (a : FVec Ideal S2048x9 .bf16) (b : FVec Ideal S9x128 .bf16) (p : Fin 2048) (c : Fin 128) :
    matmul dot_S2048x9_S9x128_S2048x128_1_0_0_1_n_n none a b (constant S2048x128 .f32 0x00000000#32) (ix2 p c)
      = ∑ k : Fin 9, a (ix2 p k) * b (ix2 k c) := by
  refine (Ideal.matmul_constant_zero_apply dot_S2048x9_S9x128_S2048x128_1_0_0_1_n_n none a b (ix2 p c)).trans ?_
  rw [← Equiv.sum_comp (contrEquiv1 dot_S2048x9_S9x128_S2048x128_1_0_0_1_n_n 9 rfl rfl).symm]
  refine Finset.sum_congr rfl fun k _ => ?_
  have hk := contrEquiv1_symm_val dot_S2048x9_S9x128_S2048x128_1_0_0_1_n_n 9 rfl rfl k
  have el : dot_S2048x9_S9x128_S2048x128_1_0_0_1_n_n.lhsIdx (ix2 p c) ((contrEquiv1 dot_S2048x9_S9x128_S2048x128_1_0_0_1_n_n 9 rfl rfl).symm k) = ix2 p k := funext fun x => Fin.ext (by
    match x with
    | ⟨0, _⟩ => exact lhs_mm_0 _ _
    | ⟨1, _⟩ => exact (lhs_mm_1 _ _).trans hk)
  have er : dot_S2048x9_S9x128_S2048x128_1_0_0_1_n_n.rhsIdx (ix2 p c) ((contrEquiv1 dot_S2048x9_S9x128_S2048x128_1_0_0_1_n_n 9 rfl rfl).symm k) = ix2 k c := funext fun x => Fin.ext (by
    match x with
    | ⟨0, _⟩ => exact (rhs_mm_0 _ _).trans hk
    | ⟨1, _⟩ => exact rhs_mm_1 _ _)
  rw [el, er]

/-! ## The operands read at an index -/

/-- A row of 128 values laid over 2048 rows: every row reads the value of its column. -/
theorem rowb_apply (w : FVec Ideal S128 .f32) (p : Fin 2048) (c : Fin 128) :
    broadcastTo S2048x128 (shapeCast S1x128 w shapeCasts_S128_S1x128) broadcasts_S1x128_S2048x128 (ix2 p c) = w (ix1 c) :=
  (broadcastTo_1b_ab_apply _ broadcasts_S1x128_S2048x128 p c).trans
    (shapeCast_a_1a_apply w shapeCasts_S128_S1x128 (0 : Fin 1) c)

/-- A column of 2048 values laid over 128 columns: every column reads the value of its row. -/
theorem colb_apply (m : FVec Ideal S2048x1 .f32) (p : Fin 2048) (c : Fin 128) :
    broadcastTo S2048x128 m broadcasts_S2048x1_S2048x128 (ix2 p c) = m (ix2 p (0 : Fin 1)) := by
  refine broadcastTo_apply m broadcasts_S2048x1_S2048x128 (ix2 p c) (ix2 p (0 : Fin 1)) fun ax => ?_
  match ax with
  | ⟨0, _⟩ => show p.val = if (2048 : Nat) = 1 then 0 else p.val; rw [if_neg (by decide)]
  | ⟨1, _⟩ => show 0 = if (1 : Nat) = 1 then 0 else c.val; rw [if_pos rfl]

/-- The points' coordinates as a [2048,9] matrix: row `32 r + n` holds point `n` of polyline `r`. -/
theorem lhs_apply (v0 : FVec Ideal S1x64x32x9 .f32) (r : Fin 64) (n : Fin 32) (k : Fin 9) :
    shapeCast S2048x9 (truncf .bf16 (shapeCast S64x32x9 v0 shapeCasts_S1x64x32x9_S64x32x9) bitsLt_bf16_f32)
        shapeCasts_S64x32x9_S2048x9 (ix2 (pt r n) k)
      = v0 (ix4 (0 : Fin 1) r n k) := by
  refine (shapeCast_apply _ shapeCasts_S64x32x9_S2048x9 (ix2 (pt r n) k) (ix3 r n k) ?_).trans ?_
  · rw [Shape.rowMajor_val_three, Shape.rowMajor_val_two]
    show (r.val * 32 + n.val) * 9 + k.val = (32 * r.val + n.val) * 9 + k.val
    omega
  · refine (truncf_apply _ bitsLt_bf16_f32 (ix3 r n k)).trans ?_
    refine shapeCast_apply v0 shapeCasts_S1x64x32x9_S64x32x9 (ix3 r n k) (ix4 (0 : Fin 1) r n k) ?_
    rw [Shape.rowMajor_val_four, Shape.rowMajor_val_three]
    show ((0 * 64 + r.val) * 32 + n.val) * 9 + k.val = (r.val * 32 + n.val) * 9 + k.val
    omega

/-- The weight matrix transposed: entry `(k, c)` is the weight of coordinate `k` for channel `c`. -/
theorem rhs_apply (w2 : FVec Ideal S128x9 .f32) (k : Fin 9) (c : Fin 128) :
    transpose S9x128 [1, 0] (truncf .bf16 w2 bitsLt_bf16_f32) transposes_S128x9_p1_0_S9x128 (ix2 k c) = w2 (ix2 c k) :=
  (transpose_ix2_apply _ transposes_S128x9_p1_0_S9x128 k c).trans (truncf_apply w2 bitsLt_bf16_f32 (ix2 c k))

/-! ## The maximum over a polyline's points -/

/-- The maximum over the middle axis of a [64,32,128] block, from minus infinity, at `(r, c)`: the pooled maximum of
    the 32 values at `(r, ·, c)`. -/
theorem red_apply (src : FVec Ideal S64x32x128 .f32) (r : Fin 64) (c : Fin 128) :
    multiReduction (F := Ideal) .maximumf [1] S64x128 src 0xFF800000#32 reduces_S64x32x128_S64x128 (.inl rfl) rfl (ix2 r c)
      = poolMax fun n' => src (ix3 r n' c) := by
  refine (Ideal.multiReduction_maximumf_single src 0xFF800000#32 reduces_S64x32x128_S64x128 (.inl rfl) rfl (ix2 r c)).trans ?_
  unfold poolMax ninf
  show (Finset.univ : Finset (Fin 32)).fold max (Ideal.ofBits .f32 0xFF800000#32)
      (src ∘ reduces_S64x32x128_S64x128.lift (ix2 r c)) = _
  refine Finset.fold_congr fun n' _ => ?_
  show src (reduces_S64x32x128_S64x128.lift (ix2 r c) n') = src (ix3 r n' c)
  refine congrArg src (funext fun ax => Fin.ext ?_)
  match ax with
  | ⟨0, _⟩ => rfl
  | ⟨1, _⟩ => rfl
  | ⟨2, _⟩ => rfl

/-- The first layer's product at row `32 r + n`, channel `c`: the sum over the nine coordinates of point `n` of
    polyline `r` times the channel's weights. -/
theorem prod_apply (v0 : FVec Ideal S1x64x32x9 .f32) (w2 : FVec Ideal S128x9 .f32) (r : Fin 64) (n : Fin 32) (c : Fin 128) :
    matmul dot_S2048x9_S9x128_S2048x128_1_0_0_1_n_n none
        (shapeCast S2048x9 (truncf .bf16 (shapeCast S64x32x9 v0 shapeCasts_S1x64x32x9_S64x32x9) bitsLt_bf16_f32)
          shapeCasts_S64x32x9_S2048x9)
        (transpose S9x128 [1, 0] (truncf .bf16 w2 bitsLt_bf16_f32) transposes_S128x9_p1_0_S9x128)
        (constant S2048x128 .f32 0x00000000#32) (ix2 (pt r n) c)
      = ∑ k : Fin 9, v0 (ix4 (0 : Fin 1) r n k) * w2 (ix2 c k) :=
  (mm_apply _ _ (pt r n) c).trans (Finset.sum_congr rfl fun k _ => by rw [lhs_apply, rhs_apply])

/-! ## The two halves of the joined features -/

/-- The masked first-layer features of a tile's 2048 points, as the kernel computes them: the coordinates times the
    transposed weights, minus the mean, times the scale over the root of the variance plus its offset, plus the
    shift, rectified, times the mask column. -/
def enc (v0 : FVec Ideal S1x64x32x9 .f32) (w2 : FVec Ideal S128x9 .f32) (w3 w4 w5 w6 : FVec Ideal S128 .f32)
    (v27 : FVec Ideal S1x64x32 .f32) : FVec Ideal S2048x128 .f32 :=
  mulf
    (maximumf
      (addf
        (mulf
          (subf
            (matmul dot_S2048x9_S9x128_S2048x128_1_0_0_1_n_n none
              (shapeCast S2048x9 (truncf .bf16 (shapeCast S64x32x9 v0 shapeCasts_S1x64x32x9_S64x32x9) bitsLt_bf16_f32)
                shapeCasts_S64x32x9_S2048x9)
              (transpose S9x128 [1, 0] (truncf .bf16 w2 bitsLt_bf16_f32) transposes_S128x9_p1_0_S9x128)
              (constant S2048x128 .f32 0x00000000#32))
            (broadcastTo S2048x128 (shapeCast S1x128 w5 shapeCasts_S128_S1x128) broadcasts_S1x128_S2048x128))
          (broadcastTo S2048x128
            (shapeCast S1x128 (mulf w3 (rsqrt (addf w6 (broadcast S128 (Scalar.ofBits .f32 0x3727C5AC#32)))))
              shapeCasts_S128_S1x128)
            broadcasts_S1x128_S2048x128))
        (broadcastTo S2048x128 (shapeCast S1x128 w4 shapeCasts_S128_S1x128) broadcasts_S1x128_S2048x128))
      (broadcast S2048x128 (Scalar.ofBits .f32 0x00000000#32)))
    (broadcastTo S2048x128 (k0_pay2 v27) broadcasts_S2048x1_S2048x128)

/-- A [2048,128] array of per-point features pooled over each polyline's 32 points and laid back over the points. -/
def pooled (y : FVec Ideal S2048x128 .f32) : FVec Ideal S2048x128 .f32 :=
  shapeCast S2048x128
    (broadcastTo S64x32x128
      (shapeCast S64x1x128
        (shapeCast S64x1x128
          (multiReduction .maximumf [1] S64x128 (shapeCast S64x32x128 y shapeCasts_S2048x128_S64x32x128) 0xFF800000#32
            reduces_S64x32x128_S64x128 (.inl rfl) rfl)
          shapeCasts_S64x128_S64x1x128)
        shapeCasts_S64x1x128_S64x1x128)
      broadcasts_S64x1x128_S64x32x128)
    shapeCasts_S64x32x128_S2048x128

/-- The joined features are the per-point features beside their pooling, along the channel axis. -/
theorem pay3_eq (v0 : FVec Ideal S1x64x32x9 .f32) (w2 : FVec Ideal S128x9 .f32) (w3 w4 w5 w6 : FVec Ideal S128 .f32)
    (v27 : FVec Ideal S1x64x32 .f32) :
    k0_pay3 (F := Ideal) v0 w2 w3 w4 w5 w6 v27
      = concatenate S2048x256 1 [⟨S2048x128, enc v0 w2 w3 w4 w5 w6 v27⟩, ⟨S2048x128, pooled (enc v0 w2 w3 w4 w5 w6 v27)⟩]
          concatenates_S2048x128_S2048x128_S2048x256_d1 := rfl

/-- Row `32 r + n`, channel `c` of the per-point features: the first layer's feature of point `n` of polyline `r`. -/
theorem enc_apply (v0 : FVec Ideal S1x64x32x9 .f32) (w2 : FVec Ideal S128x9 .f32) (w3 w4 w5 w6 : FVec Ideal S128 .f32)
    (v27 : FVec Ideal S1x64x32 .f32) (r : Fin 64) (n : Fin 32) (c : Fin 128) :
    enc v0 w2 w3 w4 w5 w6 v27 (ix2 (pt r n) c)
      = feat (fun n' y => y * v27 (ix3 (0 : Fin 1) r n')) (fun o c => w2 (ix2 o c)) (fun o => w3 (ix1 o))
          (fun o => w4 (ix1 o)) (fun o => w5 (ix1 o)) (fun o => w6 (ix1 o)) (fun n' c => v0 (ix4 (0 : Fin 1) r n' c)) n c := by
  unfold enc feat act lin
  rw [mulf_apply, maximumf_apply, addf_apply, mulf_apply, subf_apply, prod_apply, rowb_apply, rowb_apply, rowb_apply,
    colb_apply, pay2_apply]
  rfl

/-- Row `32 r + n`, channel `c` of the pooling: the maximum over the polyline's points `n'` of rows `32 r + n'`. -/
theorem pooled_apply (y : FVec Ideal S2048x128 .f32) (r : Fin 64) (n : Fin 32) (c : Fin 128) :
    pooled y (ix2 (pt r n) c) = poolMax fun n' => y (ix2 (pt r n') c) := by
  unfold pooled
  refine (shapeCast_apply _ shapeCasts_S64x32x128_S2048x128 (ix2 (pt r n) c) (ix3 r n c) ?_).trans ?_
  · rw [Shape.rowMajor_val_three, Shape.rowMajor_val_two]
    show (r.val * 32 + n.val) * 128 + c.val = (32 * r.val + n.val) * 128 + c.val
    omega
  refine (broadcastTo_apply _ broadcasts_S64x1x128_S64x32x128 (ix3 r n c) (ix3 r (0 : Fin 1) c) fun ax => ?_).trans ?_
  · match ax with
    | ⟨0, _⟩ => show r.val = if (64 : Nat) = 1 then 0 else r.val; rw [if_neg (by decide)]
    | ⟨1, _⟩ => show 0 = if (1 : Nat) = 1 then 0 else n.val; rw [if_pos rfl]
    | ⟨2, _⟩ => show c.val = if (128 : Nat) = 1 then 0 else c.val; rw [if_neg (by decide)]
  refine (shapeCast_apply _ shapeCasts_S64x1x128_S64x1x128 (ix3 r (0 : Fin 1) c) (ix3 r (0 : Fin 1) c) rfl).trans ?_
  refine (shapeCast_apply _ shapeCasts_S64x128_S64x1x128 (ix3 r (0 : Fin 1) c) (ix2 r c) ?_).trans ?_
  · rw [Shape.rowMajor_val_three, Shape.rowMajor_val_two]
    show r.val * 128 + c.val = (r.val * 1 + 0) * 128 + c.val
    omega
  refine (red_apply _ r c).trans ?_
  unfold poolMax
  refine Finset.fold_congr fun n' _ => ?_
  refine shapeCast_apply y shapeCasts_S2048x128_S64x32x128 (ix3 r n' c) (ix2 (pt r n') c) ?_
  rw [Shape.rowMajor_val_three, Shape.rowMajor_val_two]
  show (32 * r.val + n'.val) * 128 + c.val = (r.val * 32 + n'.val) * 128 + c.val
  omega

end Pay3

open Pay3 in
/-- Row `32 r + n`, channel `k` of the joined features: the first layer's features of point `n` of polyline `r`,
    multiplied by the point's mask, for `k < 128`; their maximum over the polyline's points for `k ≥ 128`. -/
theorem pay3_apply (v0 : FVec Ideal S1x64x32x9 .f32) (w2 : FVec Ideal S128x9 .f32) (w3 w4 w5 w6 : FVec Ideal S128 .f32)
    (v27 : FVec Ideal S1x64x32 .f32) (r : Fin 64) (n : Fin 32) (k : Fin 256) :
    k0_pay3 (F := Ideal) v0 w2 w3 w4 w5 w6 v27 (ix2 (pt r n) k)
      = catOf (feat (fun n' y => y * v27 (ix3 (0 : Fin 1) r n')) (fun o c => w2 (ix2 o c)) (fun o => w3 (ix1 o))
          (fun o => w4 (ix1 o)) (fun o => w5 (ix1 o)) (fun o => w6 (ix1 o)) (fun n' c => v0 (ix4 (0 : Fin 1) r n' c))) n k := by
  rw [pay3_eq]
  unfold catOf
  by_cases hk : k.val < 128
  · rw [dif_pos hk]
    refine (concatenate_pair_apply_left (1 : Fin S2048x256.rank) _ _ concatenates_S2048x128_S2048x128_S2048x256_d1
      (ix2 (pt r n) k) rfl (ix2 (pt r n) ⟨k.val, hk⟩) fun b => ?_).trans (enc_apply v0 w2 w3 w4 w5 w6 v27 r n ⟨k.val, hk⟩)
    match b with
    | ⟨0, _⟩ => rfl
    | ⟨1, _⟩ => rfl
  · rw [dif_neg hk]
    refine (concatenate_pair_apply_right (1 : Fin S2048x256.rank) _ _ concatenates_S2048x128_S2048x128_S2048x256_d1
      (ix2 (pt r n) k) rfl rfl (ix2 (pt r n) ⟨k.val - 128, by omega⟩) (fun b hb => ?_) ?_).trans ?_
    · match b with
      | ⟨0, _⟩ => rfl
      | ⟨1, _⟩ => exact absurd rfl hb
    · show k.val - 128 + 128 = k.val
      omega
    · refine (pooled_apply _ r n ⟨k.val - 128, by omega⟩).trans ?_
      unfold poolMax
      exact Finset.fold_congr fun n' _ => enc_apply v0 w2 w3 w4 w5 w6 v27 r n' ⟨k.val - 128, by omega⟩

end Cert.Polyline.Kernel

end
-- ==== Proof.KPay4.lean ====
/-
  The second part of the kernel's body read at an index: the second layer whole and the third layer up to its
  scale, and the third layer's offset broadcast over the rows.
-/
import proofs.«168215_j18511309045816_1_alg».proof.Proof.Gen.KernelIdeal.Skeleton
import proofs.«168215_j18511309045816_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Polyline.Kernel

open Cert.KernelIdeal Cert.KernelIdeal.Gen Idealize.ShloMosaic Idealize.ShloMosaic.ValueIdx Cert.Polyline

/-! ## A vector of 128 channels laid over the rows -/

/-- A vector of 128 entries seen as one row and repeated over the 2048 rows reads, at row `q` and column `h`, its
    entry `h`. -/
private theorem rowBroadcast_apply (w : FVec Ideal S128 .f32) (q : Fin 2048) (h : Fin 128) :
    broadcastTo S2048x128 (shapeCast S1x128 w shapeCasts_S128_S1x128) broadcasts_S1x128_S2048x128 (ix2 q h) = w (ix1 h) :=
  (broadcastTo_1b_ab_apply (shapeCast S1x128 w shapeCasts_S128_S1x128) broadcasts_S1x128_S2048x128 q h).trans
    (shapeCast_a_1a_apply w shapeCasts_S128_S1x128 (0 : Fin 1) h)

/-! ## The two matrix products: which operand entries meet at contraction position `c`

  At result entry `i` and contraction position `c` the left operand is read at row `i 0`, column `c`, and the right
  operand at row `c`, column `i 1`. -/

private theorem mm1_lhs_0 (i : S2048x128.Idx) (c : dot_S2048x256_S256x128_S2048x128_1_0_0_1_n_n.contr.Idx) :
    (dot_S2048x256_S256x128_S2048x128_1_0_0_1_n_n.lhsIdx i c 0).val = (i 0).val := by
  unfold DotDims.lhsIdx
  rw [dif_neg (show ¬(0 : Fin S2048x256.rank) ∈ dot_S2048x256_S256x128_S2048x128_1_0_0_1_n_n.lhsBatch by decide), dif_pos (show (0 : Fin S2048x256.rank) ∈ dot_S2048x256_S256x128_S2048x128_1_0_0_1_n_n.lhsNonContracting by decide)]
  rfl
private theorem mm1_lhs_1 (i : S2048x128.Idx) (c : dot_S2048x256_S256x128_S2048x128_1_0_0_1_n_n.contr.Idx) :
    (dot_S2048x256_S256x128_S2048x128_1_0_0_1_n_n.lhsIdx i c 1).val = (c ⟨0, by decide⟩).val :=
  dot_S2048x256_S256x128_S2048x128_1_0_0_1_n_n.lhsIdx_val_of_single rfl i c
private theorem mm1_rhs_0 (i : S2048x128.Idx) (c : dot_S2048x256_S256x128_S2048x128_1_0_0_1_n_n.contr.Idx) :
    (dot_S2048x256_S256x128_S2048x128_1_0_0_1_n_n.rhsIdx i c 0).val = (c ⟨0, by decide⟩).val :=
  dot_S2048x256_S256x128_S2048x128_1_0_0_1_n_n.rhsIdx_val_of_single rfl i c
private theorem mm1_rhs_1 (i : S2048x128.Idx) (c : dot_S2048x256_S256x128_S2048x128_1_0_0_1_n_n.contr.Idx) :
    (dot_S2048x256_S256x128_S2048x128_1_0_0_1_n_n.rhsIdx i c 1).val = (i 1).val := by
  unfold DotDims.rhsIdx
  rw [dif_neg (show ¬(1 : Fin S256x128.rank) ∈ dot_S2048x256_S256x128_S2048x128_1_0_0_1_n_n.rhsBatch by decide), dif_pos (show (1 : Fin S256x128.rank) ∈ dot_S2048x256_S256x128_S2048x128_1_0_0_1_n_n.rhsNonContracting by decide)]
  rfl

private theorem mm2_lhs_0 (i : S2048x128.Idx) (c : dot_S2048x128_S128x128_S2048x128_1_0_0_1_n_n.contr.Idx) :
    (dot_S2048x128_S128x128_S2048x128_1_0_0_1_n_n.lhsIdx i c 0).val = (i 0).val := by
  unfold DotDims.lhsIdx
  rw [dif_neg (show ¬(0 : Fin S2048x128.rank) ∈ dot_S2048x128_S128x128_S2048x128_1_0_0_1_n_n.lhsBatch by decide), dif_pos (show (0 : Fin S2048x128.rank) ∈ dot_S2048x128_S128x128_S2048x128_1_0_0_1_n_n.lhsNonContracting by decide)]
  rfl
private theorem mm2_lhs_1 (i : S2048x128.Idx) (c : dot_S2048x128_S128x128_S2048x128_1_0_0_1_n_n.contr.Idx) :
    (dot_S2048x128_S128x128_S2048x128_1_0_0_1_n_n.lhsIdx i c 1).val = (c ⟨0, by decide⟩).val :=
  dot_S2048x128_S128x128_S2048x128_1_0_0_1_n_n.lhsIdx_val_of_single rfl i c
private theorem mm2_rhs_0 (i : S2048x128.Idx) (c : dot_S2048x128_S128x128_S2048x128_1_0_0_1_n_n.contr.Idx) :
    (dot_S2048x128_S128x128_S2048x128_1_0_0_1_n_n.rhsIdx i c 0).val = (c ⟨0, by decide⟩).val :=
  dot_S2048x128_S128x128_S2048x128_1_0_0_1_n_n.rhsIdx_val_of_single rfl i c
private theorem mm2_rhs_1 (i : S2048x128.Idx) (c : dot_S2048x128_S128x128_S2048x128_1_0_0_1_n_n.contr.Idx) :
    (dot_S2048x128_S128x128_S2048x128_1_0_0_1_n_n.rhsIdx i c 1).val = (i 1).val := by
  unfold DotDims.rhsIdx
  rw [dif_neg (show ¬(1 : Fin S128x128.rank) ∈ dot_S2048x128_S128x128_S2048x128_1_0_0_1_n_n.rhsBatch by decide), dif_pos (show (1 : Fin S128x128.rank) ∈ dot_S2048x128_S128x128_S2048x128_1_0_0_1_n_n.rhsNonContracting by decide)]
  rfl

/-- The product of a `2048 × 256` matrix with a `256 × 128` one, accumulated into zero, at row `q` and column `h`: the sum
    over the 256 positions of row `q` against column `h`. -/
private theorem mm1_apply (l : FVec Ideal S2048x256 .bf16) (rt : FVec Ideal S256x128 .bf16) (q : Fin 2048) (h : Fin 128) :
    matmul dot_S2048x256_S256x128_S2048x128_1_0_0_1_n_n none l rt (constant S2048x128 .f32 0x00000000#32) (ix2 q h)
      = ∑ k : Fin 256, l (ix2 q k) * rt (ix2 k h) := by
  show FloatOps.matmul dot_S2048x256_S256x128_S2048x128_1_0_0_1_n_n none l rt (constant S2048x128 .f32 0x00000000#32) (ix2 q h) = _
  rw [Ideal.matmul_constant_zero_apply, ← Equiv.sum_comp (contrEquiv1 dot_S2048x256_S256x128_S2048x128_1_0_0_1_n_n 256 rfl rfl).symm]
  refine Finset.sum_congr rfl fun k _ => ?_
  have hk := contrEquiv1_symm_val dot_S2048x256_S256x128_S2048x128_1_0_0_1_n_n 256 rfl rfl k
  have el : dot_S2048x256_S256x128_S2048x128_1_0_0_1_n_n.lhsIdx (ix2 q h) ((contrEquiv1 dot_S2048x256_S256x128_S2048x128_1_0_0_1_n_n 256 rfl rfl).symm k) = ix2 q k := funext fun a => Fin.ext (by
    match a with
    | ⟨0, _⟩ => exact mm1_lhs_0 _ _
    | ⟨1, _⟩ => exact (mm1_lhs_1 _ _).trans hk)
  have er : dot_S2048x256_S256x128_S2048x128_1_0_0_1_n_n.rhsIdx (ix2 q h) ((contrEquiv1 dot_S2048x256_S256x128_S2048x128_1_0_0_1_n_n 256 rfl rfl).symm k) = ix2 k h := funext fun a => Fin.ext (by
    match a with
    | ⟨0, _⟩ => exact (mm1_rhs_0 _ _).trans hk
    | ⟨1, _⟩ => exact mm1_rhs_1 _ _)
  rw [el, er]

/-- The product of a `2048 × 128` matrix with a `128 × 128` one, accumulated into zero, at row `q` and column `h`: the sum
    over the 128 positions of row `q` against column `h`. -/
private theorem mm2_apply (l : FVec Ideal S2048x128 .bf16) (rt : FVec Ideal S128x128 .bf16) (q : Fin 2048) (h : Fin 128) :
    matmul dot_S2048x128_S128x128_S2048x128_1_0_0_1_n_n none l rt (constant S2048x128 .f32 0x00000000#32) (ix2 q h)
      = ∑ k : Fin 128, l (ix2 q k) * rt (ix2 k h) := by
  show FloatOps.matmul dot_S2048x128_S128x128_S2048x128_1_0_0_1_n_n none l rt (constant S2048x128 .f32 0x00000000#32) (ix2 q h) = _
  rw [Ideal.matmul_constant_zero_apply, ← Equiv.sum_comp (contrEquiv1 dot_S2048x128_S128x128_S2048x128_1_0_0_1_n_n 128 rfl rfl).symm]
  refine Finset.sum_congr rfl fun k _ => ?_
  have hk := contrEquiv1_symm_val dot_S2048x128_S128x128_S2048x128_1_0_0_1_n_n 128 rfl rfl k
  have el : dot_S2048x128_S128x128_S2048x128_1_0_0_1_n_n.lhsIdx (ix2 q h) ((contrEquiv1 dot_S2048x128_S128x128_S2048x128_1_0_0_1_n_n 128 rfl rfl).symm k) = ix2 q k := funext fun a => Fin.ext (by
    match a with
    | ⟨0, _⟩ => exact mm2_lhs_0 _ _
    | ⟨1, _⟩ => exact (mm2_lhs_1 _ _).trans hk)
  have er : dot_S2048x128_S128x128_S2048x128_1_0_0_1_n_n.rhsIdx (ix2 q h) ((contrEquiv1 dot_S2048x128_S128x128_S2048x128_1_0_0_1_n_n 128 rfl rfl).symm k) = ix2 k h := funext fun a => Fin.ext (by
    match a with
    | ⟨0, _⟩ => exact (mm2_rhs_0 _ _).trans hk
    | ⟨1, _⟩ => exact mm2_rhs_1 _ _)
  rw [el, er]

/-! ## One layer's linear map, shift and scale -/

/-- The second layer before its offset: the rows times the transposed `128 × 256` weights, less the mean, times the gain
    over the root of the variance plus `eps`, at row `q` and channel `h`, is `lin` of row `q`. -/
private theorem lin1_read (x : FVec Ideal S2048x256 .f32) (W : FVec Ideal S128x256 .f32) (g m v : FVec Ideal S128 .f32) (q : Fin 2048) (h : Fin 128) :
    mulf (subf (matmul dot_S2048x256_S256x128_S2048x128_1_0_0_1_n_n none (truncf .bf16 x bitsLt_bf16_f32)
            (transpose S256x128 [1, 0] (truncf .bf16 W bitsLt_bf16_f32) transposes_S128x256_p1_0_S256x128) (constant S2048x128 .f32 0x00000000#32))
          (broadcastTo S2048x128 (shapeCast S1x128 m shapeCasts_S128_S1x128) broadcasts_S1x128_S2048x128))
        (broadcastTo S2048x128 (shapeCast S1x128 (mulf g (rsqrt (addf v (broadcast S128 (Scalar.ofBits .f32 0x3727C5AC#32)))))
          shapeCasts_S128_S1x128) broadcasts_S1x128_S2048x128) (ix2 q h)
      = lin (fun o k => W (ix2 o k)) (fun o => g (ix1 o)) (fun o => m (ix1 o)) (fun o => v (ix1 o)) (fun k => x (ix2 q k)) h := by
  unfold lin
  show (matmul dot_S2048x256_S256x128_S2048x128_1_0_0_1_n_n none (truncf .bf16 x bitsLt_bf16_f32)
            (transpose S256x128 [1, 0] (truncf .bf16 W bitsLt_bf16_f32) transposes_S128x256_p1_0_S256x128) (constant S2048x128 .f32 0x00000000#32) (ix2 q h)
          - broadcastTo S2048x128 (shapeCast S1x128 m shapeCasts_S128_S1x128) broadcasts_S1x128_S2048x128 (ix2 q h))
        * broadcastTo S2048x128 (shapeCast S1x128 (mulf g (rsqrt (addf v (broadcast S128 (Scalar.ofBits .f32 0x3727C5AC#32)))))
          shapeCasts_S128_S1x128) broadcasts_S1x128_S2048x128 (ix2 q h) = _
  rw [rowBroadcast_apply, rowBroadcast_apply, mm1_apply]
  refine congrArg₂ (fun s r => (s - m (ix1 h)) * r) (Finset.sum_congr rfl fun k _ => ?_) rfl
  exact congrArg (x (ix2 q k) * ·) (transpose_ix2_apply (truncf .bf16 W bitsLt_bf16_f32) transposes_S128x256_p1_0_S256x128 k h)

/-- The third layer before its offset: the same with the `128 × 128` weights. -/
private theorem lin2_read (x : FVec Ideal S2048x128 .f32) (W : FVec Ideal S128x128 .f32) (g m v : FVec Ideal S128 .f32) (q : Fin 2048) (h : Fin 128) :
    mulf (subf (matmul dot_S2048x128_S128x128_S2048x128_1_0_0_1_n_n none (truncf .bf16 x bitsLt_bf16_f32)
            (transpose S128x128 [1, 0] (truncf .bf16 W bitsLt_bf16_f32) transposes_S128x128_p1_0_S128x128) (constant S2048x128 .f32 0x00000000#32))
          (broadcastTo S2048x128 (shapeCast S1x128 m shapeCasts_S128_S1x128) broadcasts_S1x128_S2048x128))
        (broadcastTo S2048x128 (shapeCast S1x128 (mulf g (rsqrt (addf v (broadcast S128 (Scalar.ofBits .f32 0x3727C5AC#32)))))
          shapeCasts_S128_S1x128) broadcasts_S1x128_S2048x128) (ix2 q h)
      = lin (fun o k => W (ix2 o k)) (fun o => g (ix1 o)) (fun o => m (ix1 o)) (fun o => v (ix1 o)) (fun k => x (ix2 q k)) h := by
  unfold lin
  show (matmul dot_S2048x128_S128x128_S2048x128_1_0_0_1_n_n none (truncf .bf16 x bitsLt_bf16_f32)
            (transpose S128x128 [1, 0] (truncf .bf16 W bitsLt_bf16_f32) transposes_S128x128_p1_0_S128x128) (constant S2048x128 .f32 0x00000000#32) (ix2 q h)
          - broadcastTo S2048x128 (shapeCast S1x128 m shapeCasts_S128_S1x128) broadcasts_S1x128_S2048x128 (ix2 q h))
        * broadcastTo S2048x128 (shapeCast S1x128 (mulf g (rsqrt (addf v (broadcast S128 (Scalar.ofBits .f32 0x3727C5AC#32)))))
          shapeCasts_S128_S1x128) broadcasts_S1x128_S2048x128 (ix2 q h) = _
  rw [rowBroadcast_apply, rowBroadcast_apply, mm2_apply]
  refine congrArg₂ (fun s r => (s - m (ix1 h)) * r) (Finset.sum_congr rfl fun k _ => ?_) rfl
  exact congrArg (x (ix2 q k) * ·) (transpose_ix2_apply (truncf .bf16 W bitsLt_bf16_f32) transposes_S128x128_p1_0_S128x128 k h)

/-! ## The offset and the rectifier -/

/-- A layer's offset added on every row and the maximum with zero taken, at row `q` and channel `h`. -/
private theorem relu_offset_apply (y : FVec Ideal S2048x128 .f32) (b : FVec Ideal S128 .f32) (q : Fin 2048) (h : Fin 128) :
    maximumf (addf y (broadcastTo S2048x128 (shapeCast S1x128 b shapeCasts_S128_S1x128) broadcasts_S1x128_S2048x128))
        (broadcast S2048x128 (Scalar.ofBits .f32 0x00000000#32)) (ix2 q h)
      = max (y (ix2 q h) + b (ix1 h)) z0 :=
  congrArg (fun t => max (y (ix2 q h) + t) z0) (rowBroadcast_apply b q h)

/-! ## The payloads -/

/-- Row `q`, channel `h`: the third layer's linear map, shift and scale of the second layer's output on row `q` of
    the joined features. -/
theorem pay4_apply (v38 : FVec Ideal S2048x256 .f32) (w7 : FVec Ideal S128x256 .f32) (w8 w9 w10 w11 : FVec Ideal S128 .f32)
    (w12 : FVec Ideal S128x128 .f32) (w13 w15 w16 : FVec Ideal S128 .f32) (q : Fin 2048) (h : Fin 128) :
    k0_pay4 (F := Ideal) v38 w7 w8 w9 w10 w11 w12 w13 w15 w16 (ix2 q h)
      = lin (fun o k => w12 (ix2 o k)) (fun o => w13 (ix1 o)) (fun o => w15 (ix1 o)) (fun o => w16 (ix1 o))
          (act (fun o k => w7 (ix2 o k)) (fun o => w8 (ix1 o)) (fun o => w9 (ix1 o)) (fun o => w10 (ix1 o)) (fun o => w11 (ix1 o))
            (fun k => v38 (ix2 q k))) h := by
  unfold k0_pay4
  refine (lin2_read _ w12 w13 w15 w16 q h).trans ?_
  refine congrArg (fun a => lin (fun o k => w12 (ix2 o k)) (fun o => w13 (ix1 o)) (fun o => w15 (ix1 o)) (fun o => w16 (ix1 o)) a h)
    (funext fun k => ?_)
  unfold act
  refine (relu_offset_apply _ w9 q k).trans ?_
  exact congrArg (fun t => max (t + w9 (ix1 k)) z0) (lin1_read v38 w7 w8 w10 w11 q k)

/-- The third layer's offset, the same on every row. -/
theorem pay5_apply (w14 : FVec Ideal S128 .f32) (q : Fin 2048) (h : Fin 128) :
    k0_pay5 (F := Ideal) w14 (ix2 q h) = w14 (ix1 h) := by
  unfold k0_pay5
  exact rowBroadcast_apply w14 q h

end Cert.Polyline.Kernel

end
-- ==== Proof.KBody.lean ====
/-
  The kernel's body as one function of its input blocks: the value stored for polyline `r` of the tile is the
  encoder's row on that polyline's points, with the mask applied as a product by the mask block's entries.
-/
import proofs.«168215_j18511309045816_1_alg».proof.Proof.KPay1
import proofs.«168215_j18511309045816_1_alg».proof.Proof.KPay3
import proofs.«168215_j18511309045816_1_alg».proof.Proof.KPay4

noncomputable section

open scoped BigOperators

namespace Cert.Polyline.Kernel

open Cert.KernelIdeal Cert.KernelIdeal.Gen Idealize.ShloMosaic Idealize.ShloMosaic.ValueIdx Cert.Polyline

/-- The three parts of the body composed: the stored tile at polyline `r`, output `o`. -/
theorem body_apply (x0 : FVec Ideal S1x64x32x9 .f32) (x1 : FVec Ideal S1x64x32 .f32) (x2 : FVec Ideal S128x9 .f32)
    (x3 x4 x5 x6 : FVec Ideal S128 .f32) (x7 : FVec Ideal S128x256 .f32) (x8 x9 x10 x11 : FVec Ideal S128 .f32)
    (x12 : FVec Ideal S128x128 .f32) (x13 x14 x15 x16 : FVec Ideal S128 .f32) (x17 : FVec Ideal S128x128 .f32)
    (x18 : FVec Ideal S128 .f32) (x19 : FVec Ideal S256x128 .f32) (x20 : FVec Ideal S256 .f32) (r : Fin 64) (o : Fin 256) :
    k0_pay1 (F := Ideal) (k0_pay2 x1) (k0_pay4 (k0_pay3 x0 x2 x3 x4 x5 x6 x1) x7 x8 x9 x10 x11 x12 x13 x15 x16) (k0_pay5 x14)
        x17 x18 x19 x20 x1 (ix3 (0 : Fin 1) r o)
      = row (weightsOf x2 x3 x4 x5 x6 x7 x8 x9 x10 x11 x12 x13 x14 x15 x16 x17 x18 x19 x20)
          (fun n y => y * x1 (ix3 (0 : Fin 1) r n)) (fun y => y * poolMax (fun n => x1 (ix3 (0 : Fin 1) r n)))
          (fun n c => x0 (ix4 (0 : Fin 1) r n c)) o := by
  rw [pay1_apply]
  unfold row weightsOf
  dsimp only
  refine congrArg (fun f => head _ _ _ _ f o * _) ?_
  funext n h
  rw [pay4_apply, pay5_apply, pay2_apply]
  have hk : (fun k => k0_pay3 (F := Ideal) x0 x2 x3 x4 x5 x6 x1 (ix2 (pt r n) k))
      = catOf (feat (fun n' y => y * x1 (ix3 (0 : Fin 1) r n')) (fun o c => x2 (ix2 o c)) (fun o => x3 (ix1 o))
          (fun o => x4 (ix1 o)) (fun o => x5 (ix1 o)) (fun o => x6 (ix1 o)) (fun n' c => x0 (ix4 (0 : Fin 1) r n' c))) n :=
    funext fun k => pay3_apply x0 x2 x3 x4 x5 x6 x1 r n k
  rw [hk]
  rfl

end Cert.Polyline.Kernel

end
-- ==== Proof.Mask.lean ====
/-
  Multiplying by the validity bits read as numbers and selecting on them give one encoder.

  A validity bit read as a number is 0 or 1. For a point, `y · bit` is `y` or `0`: the value a select on the bit
  keeps. For a polyline, the maximum over its 32 points of the bits as numbers, taken from minus infinity, is the
  disjunction of the bits as a number (there are points, so the maximum leaves minus infinity), and the product
  with it is again the select's value.
-/
import proofs.«168215_j18511309045816_1_alg».proof.Proof.Spec

noncomputable section

open scoped BigOperators

namespace Cert.Polyline

open Idealize.ShloMosaic Idealize.ShloMosaic.ValueIdx

/-- A one-bit word read as a number. -/
def bitNum (μ : BitVec 1) : EReal := (((μ.toNat : ℝ)) : EReal)

theorem ninf_eq : ninf = ⊥ := by
  show Ideal.ofBits .f32 0xFF800000#32 = ⊥
  simp [Ideal.ofBits, Ideal.ieee]

theorem bit_cases (μ : BitVec 1) : μ = 0#1 ∨ μ = 1#1 := by
  by_cases h : μ = 1#1
  · exact Or.inr h
  · exact Or.inl (eq_zero_of_ne_one h)

/-- The larger of two bits as numbers is their disjunction as a number. -/
theorem max_bitNum (a b : BitVec 1) : max (bitNum a) (bitNum b) = bitNum (IntOp.ori a b) := by
  rcases bit_cases a with rfl | rfl <;> rcases bit_cases b with rfl | rfl <;> simp [bitNum, IntOp.ori]

/-- Over a set of points that is not empty, the maximum of the bits as numbers from minus infinity is the
    disjunction of the bits as a number. -/
theorem fold_max_bitNum (μ : Fin 32 → BitVec 1) (s : Finset (Fin 32)) :
    s.fold max (⊥ : EReal) (fun n => bitNum (μ n)) = if s = ∅ then ⊥ else bitNum (s.fold IntOp.ori 0#1 μ) := by
  induction s using Finset.induction_on with
  | empty => simp
  | insert a s ha ih =>
    rw [Finset.fold_insert ha, Finset.fold_insert ha, ih, if_neg (Finset.insert_ne_empty a s)]
    by_cases hs : s = ∅
    · subst hs
      rw [if_pos rfl, Finset.fold_empty]
      show max (bitNum (μ a)) ⊥ = bitNum (IntOp.ori (μ a) 0#1)
      rw [max_bot_right]
      congr 1
      show μ a = μ a ||| 0#1
      simp
    · rw [if_neg hs, max_bitNum]

/-- A polyline's validity as the kernel takes it is the disjunction of its bits as a number. -/
theorem poolMax_bitNum (μ : Fin 32 → BitVec 1) : poolMax (fun n => bitNum (μ n)) = bitNum (anyBit μ) := by
  unfold poolMax anyBit
  rw [ninf_eq, fold_max_bitNum, if_neg]
  exact Finset.univ_nonempty.ne_empty

/-- The encoder with products by the validity bits as numbers is the encoder with selects on the bits. -/
theorem row_mask (P : Weights) (w : Fin 32 → EReal) (μ : Fin 32 → BitVec 1) (hw : ∀ n, w n = bitNum (μ n))
    (x : Fin 32 → Fin 9 → EReal) (o : Fin 256) :
    row P (fun n y => y * w n) (fun y => y * poolMax w) x o
      = row P (fun n y => Scalar.select (μ n) y z0) (fun y => Scalar.select (anyBit μ) y z0) x o := by
  have hw' : w = fun n => bitNum (μ n) := funext hw
  have hκ : (fun (n : Fin 32) (y : EReal) => y * w n) = fun n y => Scalar.select (μ n) y z0 := by
    funext n y
    rw [hw n]
    exact mul_bit (μ n) y
  have hν : (fun y : EReal => y * poolMax w) = fun y => Scalar.select (anyBit μ) y z0 := by
    funext y
    rw [hw', poolMax_bitNum]
    exact mul_bit (anyBit μ) y
  rw [hκ, hν]

end Cert.Polyline

end
-- ==== Proof.KBlocks.lean ====
/-
  The input windows' blocks at a grid point, read off the argument arrays.

  Grid point `t` of the 16 × 12 grid has block indices `(i, j)` for the result window. The coordinate window's
  block holds polylines `64 j … 64 j + 63` of batch entry `i`; the mask window's block the same rows of the
  validity bits read as numbers (the mask array is the bits converted to numbers before the kernel runs); every
  weight window's block is its whole array.
-/
import proofs.«168215_j18511309045816_1_alg».proof.Proof.Gen.KernelIdeal.Value
import proofs.«168215_j18511309045816_1_alg».proof.Proof.Mask
import Idealize.ShloMosaic.Lib.Pipeline.Value
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.Enc

open Cert.KernelIdeal Cert.KernelIdeal.Gen Cert.KernelIdeal.Value Cert.Polyline

variable (m : (ℓ : Loc nD τ sig) → Buf (Elt Ideal) ℓ)

/-- The index maps, decided over the 192 grid points: the coordinate window and the mask window move with the
    result window on the batch and polyline axes and stay at zero on the others; the result's block indices stay in
    the 16 × 12 box. -/
theorem idx_facts : ∀ t : Fin cfg0.N,
    (win0_0.index t (0 : Fin 4) = win0_21.index t (0 : Fin 3) ∧ win0_0.index t (1 : Fin 4) = win0_21.index t (1 : Fin 3)
      ∧ win0_0.index t (2 : Fin 4) = 0 ∧ win0_0.index t (3 : Fin 4) = 0)
    ∧ (win0_1.index t (0 : Fin 3) = win0_21.index t (0 : Fin 3) ∧ win0_1.index t (1 : Fin 3) = win0_21.index t (1 : Fin 3)
      ∧ win0_1.index t (2 : Fin 3) = 0)
    ∧ (win0_21.index t (0 : Fin 3) < 16 ∧ win0_21.index t (1 : Fin 3) < 12 ∧ win0_21.index t (2 : Fin 3) = 0) := by
  show ∀ t : Fin grid0.N, _
  decide +kernel

/-- Polyline `r` of the coordinate block is polyline `64 j + r` of batch entry `i`. -/
theorem blk0_apply (c : Dev nD) (t : Fin cfg0.N) (r : Fin 64) (n : Fin 32) (k : Fin 9) (b : Fin 16) (p : Fin 768)
    (hb : b.val = win0_21.index t (0 : Fin 3)) (hp : p.val = win0_21.index t (1 : Fin 3) * 64 + r.val) :
    (iblk m c 0 t : FVec Ideal S1x64x32x9 .f32) (ix4 (0 : Fin 1) r n k)
      = ((m ((c : Thread nD τ).loc main_arg0)) : S16x768x32x9.Idx → EReal) (ix4 b p n k) := by
  obtain ⟨⟨e0, e1, e2, e3⟩, -, -⟩ := idx_facts t
  unfold iblk
  rw [View.read_apply]
  show V m c main_arg0 _ = m (c.tc.loc main_arg0) _
  rw [V_main_arg0]
  congr 1
  funext a
  apply Fin.ext
  match a with
  | ⟨0, _⟩ => show win0_0.index t 0 * 1 + 1 * 0 = b.val; rw [e0, hb]; omega
  | ⟨1, _⟩ => show win0_0.index t 1 * 64 + 1 * r.val = p.val; rw [e1, hp]; omega
  | ⟨2, _⟩ => show win0_0.index t 2 * 32 + 1 * n.val = n.val; rw [e2]; omega
  | ⟨3, _⟩ => show win0_0.index t 3 * 9 + 1 * k.val = k.val; rw [e3]; omega

/-- The mask array as the kernel finds it: the validity bits converted to numbers. -/
theorem V_mask (c : Dev nD) :
    (V m c main_v0 : S16x768x32.Idx → EReal) = uitofp (F := Ideal) .f32 (m ((c : Thread nD τ).loc main_arg1)) := by
  dsimp only [Gen.V, Gen.hostOps0]; after_results

/-- Row `r` of the mask block is the validity bits of polyline `64 j + r` of batch entry `i`, read as numbers. -/
theorem blk1_apply (c : Dev nD) (t : Fin cfg0.N) (r : Fin 64) (n : Fin 32) (b : Fin 16) (p : Fin 768)
    (hb : b.val = win0_21.index t (0 : Fin 3)) (hp : p.val = win0_21.index t (1 : Fin 3) * 64 + r.val) :
    (iblk m c 1 t : FVec Ideal S1x64x32 .f32) (ix3 (0 : Fin 1) r n)
      = bitNum (((m ((c : Thread nD τ).loc main_arg1)) : S16x768x32.Idx → BitVec 1) (ix3 b p n)) := by
  obtain ⟨-, ⟨e0, e1, e2⟩, -⟩ := idx_facts t
  unfold iblk
  rw [View.read_apply]
  show (V m c main_v0 : S16x768x32.Idx → EReal) _ = _
  rw [V_mask]
  show bitNum ((m ((c : Thread nD τ).loc main_arg1) : S16x768x32.Idx → BitVec 1) _) = _
  refine congrArg (fun i : S16x768x32.Idx => bitNum ((m ((c : Thread nD τ).loc main_arg1) : S16x768x32.Idx → BitVec 1) i)) ?_
  funext a
  apply Fin.ext
  match a with
  | ⟨0, _⟩ => show win0_1.index t 0 * 1 + 1 * 0 = b.val; rw [e0, hb]; omega
  | ⟨1, _⟩ => show win0_1.index t 1 * 64 + 1 * r.val = p.val; rw [e1, hp]; omega
  | ⟨2, _⟩ => show win0_1.index t 2 * 32 + 1 * n.val = n.val; rw [e2]; omega

/-- Row `r`, output `o` of the result block lies at polyline `64 j + r` of batch entry `i` in the result array. -/
theorem emb21 (t : Fin cfg0.N) (r : Fin 64) (o : Fin 256) (b : Fin 16) (p : Fin 768)
    (hb : b.val = win0_21.index t (0 : Fin 3)) (hp : p.val = win0_21.index t (1 : Fin 3) * 64 + r.val) :
    (((cfg0.win 21).blk t).view.emb (ix3 (0 : Fin 1) r o : S1x64x256.Idx) : S16x768x256.Idx) = ix3 b p o := by
  obtain ⟨-, -, ⟨-, -, e2⟩⟩ := idx_facts t
  funext a
  apply Fin.ext
  match a with
  | ⟨0, _⟩ => show win0_21.index t 0 * 1 + 1 * 0 = b.val; rw [hb]; omega
  | ⟨1, _⟩ => show win0_21.index t 1 * 64 + 1 * r.val = p.val; rw [hp]; omega
  | ⟨2, _⟩ => show win0_21.index t 2 * 256 + 1 * o.val = o.val; rw [e2]; omega

/-! Every weight window's block is the whole argument array. -/

/-- Offsets that are a zero block index times the block size are zero. -/
theorem blk_off_zero {n : Nat} {idx : Fin n → Nat} (sz : Fin n → Nat) (h : idx = fun _ => 0) :
    (fun a => idx a * sz a) = fun _ => 0 := by
  subst h; funext a; exact Nat.zero_mul _

/-- Every weight window (windows 2 to 20) stays at block zero on every axis at every grid point. -/
theorem idx_weights : ∀ t : Fin cfg0.N, ∀ w : Fin 22, 2 ≤ w.val → w.val ≤ 20 → ∀ a, (cfg0.win w).index t a = 0 :=
  (by decide +kernel : ∀ t : Fin grid0.N, _)

/-- A window that stays at block zero on every axis, with a block as large as its array, reads the whole array
    (`whole_block w a hV t`: window `w` on array `a` at grid point `t`, the array being as launched by `hV`). -/
local macro "whole_block " w:num a:ident hV:term:max t:ident : tactic => `(tactic| (
  have hz := blk_off_zero ($a).ty.shape.size (funext fun x => idx_weights $t $w (by decide) (by decide) x)
  unfold iblk
  exact (Memref.read_access_unit_zero (Elt Ideal) $a hz (fun x => by rw [congrFun hz x]; simp) _).trans $hV))

theorem blk2_eq (c : Dev nD) (t : Fin cfg0.N) : (iblk m c 2 t : FVec Ideal S128x9 .f32) = (m ((c : Thread nD τ).loc main_arg2)) := by
  whole_block 2 main_arg2 (V_main_arg2 m c) t
theorem blk3_eq (c : Dev nD) (t : Fin cfg0.N) : (iblk m c 3 t : FVec Ideal S128 .f32) = (m ((c : Thread nD τ).loc main_arg3)) := by
  whole_block 3 main_arg3 (V_main_arg3 m c) t
theorem blk4_eq (c : Dev nD) (t : Fin cfg0.N) : (iblk m c 4 t : FVec Ideal S128 .f32) = (m ((c : Thread nD τ).loc main_arg4)) := by
  whole_block 4 main_arg4 (V_main_arg4 m c) t
theorem blk5_eq (c : Dev nD) (t : Fin cfg0.N) : (iblk m c 5 t : FVec Ideal S128 .f32) = (m ((c : Thread nD τ).loc main_arg5)) := by
  whole_block 5 main_arg5 (V_main_arg5 m c) t
theorem blk6_eq (c : Dev nD) (t : Fin cfg0.N) : (iblk m c 6 t : FVec Ideal S128 .f32) = (m ((c : Thread nD τ).loc main_arg6)) := by
  whole_block 6 main_arg6 (V_main_arg6 m c) t
theorem blk7_eq (c : Dev nD) (t : Fin cfg0.N) : (iblk m c 7 t : FVec Ideal S128x256 .f32) = (m ((c : Thread nD τ).loc main_arg7)) := by
  whole_block 7 main_arg7 (V_main_arg7 m c) t
theorem blk8_eq (c : Dev nD) (t : Fin cfg0.N) : (iblk m c 8 t : FVec Ideal S128 .f32) = (m ((c : Thread nD τ).loc main_arg8)) := by
  whole_block 8 main_arg8 (V_main_arg8 m c) t
theorem blk9_eq (c : Dev nD) (t : Fin cfg0.N) : (iblk m c 9 t : FVec Ideal S128 .f32) = (m ((c : Thread nD τ).loc main_arg9)) := by
  whole_block 9 main_arg9 (V_main_arg9 m c) t
theorem blk10_eq (c : Dev nD) (t : Fin cfg0.N) : (iblk m c 10 t : FVec Ideal S128 .f32) = (m ((c : Thread nD τ).loc main_arg10)) := by
  whole_block 10 main_arg10 (V_main_arg10 m c) t
theorem blk11_eq (c : Dev nD) (t : Fin cfg0.N) : (iblk m c 11 t : FVec Ideal S128 .f32) = (m ((c : Thread nD τ).loc main_arg11)) := by
  whole_block 11 main_arg11 (V_main_arg11 m c) t
theorem blk12_eq (c : Dev nD) (t : Fin cfg0.N) : (iblk m c 12 t : FVec Ideal S128x128 .f32) = (m ((c : Thread nD τ).loc main_arg12)) := by
  whole_block 12 main_arg12 (V_main_arg12 m c) t
theorem blk13_eq (c : Dev nD) (t : Fin cfg0.N) : (iblk m c 13 t : FVec Ideal S128 .f32) = (m ((c : Thread nD τ).loc main_arg13)) := by
  whole_block 13 main_arg13 (V_main_arg13 m c) t
theorem blk14_eq (c : Dev nD) (t : Fin cfg0.N) : (iblk m c 14 t : FVec Ideal S128 .f32) = (m ((c : Thread nD τ).loc main_arg14)) := by
  whole_block 14 main_arg14 (V_main_arg14 m c) t
theorem blk15_eq (c : Dev nD) (t : Fin cfg0.N) : (iblk m c 15 t : FVec Ideal S128 .f32) = (m ((c : Thread nD τ).loc main_arg15)) := by
  whole_block 15 main_arg15 (V_main_arg15 m c) t
theorem blk16_eq (c : Dev nD) (t : Fin cfg0.N) : (iblk m c 16 t : FVec Ideal S128 .f32) = (m ((c : Thread nD τ).loc main_arg16)) := by
  whole_block 16 main_arg16 (V_main_arg16 m c) t
theorem blk17_eq (c : Dev nD) (t : Fin cfg0.N) : (iblk m c 17 t : FVec Ideal S128x128 .f32) = (m ((c : Thread nD τ).loc main_arg17)) := by
  whole_block 17 main_arg17 (V_main_arg17 m c) t
theorem blk18_eq (c : Dev nD) (t : Fin cfg0.N) : (iblk m c 18 t : FVec Ideal S128 .f32) = (m ((c : Thread nD τ).loc main_arg18)) := by
  whole_block 18 main_arg18 (V_main_arg18 m c) t
theorem blk19_eq (c : Dev nD) (t : Fin cfg0.N) : (iblk m c 19 t : FVec Ideal S256x128 .f32) = (m ((c : Thread nD τ).loc main_arg19)) := by
  whole_block 19 main_arg19 (V_main_arg19 m c) t
theorem blk20_eq (c : Dev nD) (t : Fin cfg0.N) : (iblk m c 20 t : FVec Ideal S256 .f32) = (m ((c : Thread nD τ).loc main_arg20)) := by
  whole_block 20 main_arg20 (V_main_arg20 m c) t

end Cert.KernelIdeal.Enc

end
-- ==== Proof.KCover.lean ====
/-
  The 192 result tiles cover the result array: index `(b, p, o)` lies in the tile of the grid point whose block
  indices are `(b, p / 64)`.
-/
import proofs.«168215_j18511309045816_1_alg».proof.Proof.Gen.KernelIdeal.Value
import proofs.«168215_j18511309045816_1_alg».proof.Proof.Spec
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Enc

open Cert.KernelIdeal Cert.KernelIdeal.Gen Cert.KernelIdeal.Value Cert.Polyline

variable (m : (ℓ : Loc nD τ sig) → Buf (Elt Ideal) ℓ)

/-- An index of the result array is in grid point `t`'s tile iff each coordinate is in the tile's range on its axis. -/
theorem mem_blk21 (t : Fin cfg0.N) (i : S16x768x256.Idx) :
    i ∈ ((cfg0.win 21).blk t).view.set ↔ ∀ a : Fin 3, win0_21.index t a * S1x64x256.size a ≤ (i a).val
      ∧ (i a).val < win0_21.index t a * S1x64x256.size a + S1x64x256.size a := by
  show i ∈ ((View.whole main_v1).slice (win0_21.rect t)).set ↔ _
  rw [View.set_slice_whole, Rect.mem_set_unit]
  exact Iff.rfl

/-- The result window's block index on the output axis, decided over the grid: 0 at every point (a tile holds all 256 outputs). -/
theorem idx_facts21 : ∀ t : Fin cfg0.N, win0_21.index t (2 : Fin 3) = 0 :=
  (by decide +kernel : ∀ t : Fin grid0.N, win0_21.index t (2 : Fin 3) = 0)

/-- Every pair (batch, group of 64 polylines) is the first two block indices of some grid point, decided over the grid. -/
theorem idx_onto21 : ∀ (q0 : Fin 16) (q1 : Fin 12), ∃ t : Fin cfg0.N,
    win0_21.index t (0 : Fin 3) = q0.val ∧ win0_21.index t (1 : Fin 3) = q1.val :=
  (by decide +kernel : ∀ (q0 : Fin 16) (q1 : Fin 12), ∃ t : Fin grid0.N,
    win0_21.index t (0 : Fin 3) = q0.val ∧ win0_21.index t (1 : Fin 3) = q1.val)

/-- Every index of the result array is in some grid point's tile, and every grid point writes its tile back. -/
theorem covered21 (i : S16x768x256.Idx) :
    ∃ t : Fin cfg0.N, (cfg0.win 21).flush t = true ∧ i ∈ ((cfg0.win 21).blk t).view.set := by
  have hi0 : (i 0).val < 16 := (i 0).isLt
  have hi1 : (i 1).val < 768 := (i 1).isLt
  have hi2 : (i 2).val < 256 := (i 2).isLt
  obtain ⟨t, q0, q1⟩ := idx_onto21 ⟨(i 0).val, hi0⟩ ⟨(i 1).val / 64, by omega⟩
  have q0 : win0_21.index t (0 : Fin 3) = (i 0).val := q0
  have q1 : win0_21.index t (1 : Fin 3) = (i 1).val / 64 := q1
  have q2 : win0_21.index t (2 : Fin 3) = 0 := idx_facts21 t
  refine ⟨t, flush0_21 t, ?_⟩
  rw [mem_blk21]
  intro a
  match a with
  | ⟨0, _⟩ =>
    show win0_21.index t (0 : Fin 3) * 1 ≤ (i 0).val ∧ (i 0).val < win0_21.index t (0 : Fin 3) * 1 + 1
    omega
  | ⟨1, _⟩ =>
    show win0_21.index t (1 : Fin 3) * 64 ≤ (i 1).val ∧ (i 1).val < win0_21.index t (1 : Fin 3) * 64 + 64
    omega
  | ⟨2, _⟩ =>
    show win0_21.index t (2 : Fin 3) * 256 ≤ (i 2).val ∧ (i 2).val < win0_21.index t (2 : Fin 3) * 256 + 256
    omega

end Cert.KernelIdeal.Enc

end
-- ==== Proof.Arrays.lean ====
/-
  The encoder on whole arrays: the result at polyline `(b, p)` and output `o` is the encoder's row on the
  polyline's points, with selects on the validity bits.
-/
import proofs.«168215_j18511309045816_1_alg».proof.Proof.Spec

noncomputable section

open scoped BigOperators

namespace Cert.Polyline

open Idealize.ShloMosaic Idealize.ShloMosaic.ValueIdx

/-- Output `o` of polyline `p` of batch entry `b`, from the coordinate array, the validity bits and the weights. -/
def encode (a0 : (⟨4, ![16, 768, 32, 9]⟩ : Shape).Idx → EReal) (a1 : (⟨3, ![16, 768, 32]⟩ : Shape).Idx → BitVec 1)
    (a2 : (⟨2, ![128, 9]⟩ : Shape).Idx → EReal) (a3 a4 a5 a6 : (⟨1, ![128]⟩ : Shape).Idx → EReal)
    (a7 : (⟨2, ![128, 256]⟩ : Shape).Idx → EReal) (a8 a9 a10 a11 : (⟨1, ![128]⟩ : Shape).Idx → EReal)
    (a12 : (⟨2, ![128, 128]⟩ : Shape).Idx → EReal) (a13 a14 a15 a16 : (⟨1, ![128]⟩ : Shape).Idx → EReal)
    (a17 : (⟨2, ![128, 128]⟩ : Shape).Idx → EReal) (a18 : (⟨1, ![128]⟩ : Shape).Idx → EReal)
    (a19 : (⟨2, ![256, 128]⟩ : Shape).Idx → EReal) (a20 : (⟨1, ![256]⟩ : Shape).Idx → EReal)
    (b : Fin 16) (p : Fin 768) (o : Fin 256) : EReal :=
  row (weightsOf a2 a3 a4 a5 a6 a7 a8 a9 a10 a11 a12 a13 a14 a15 a16 a17 a18 a19 a20)
    (fun n y => Scalar.select (a1 (ix3 b p n)) y z0) (fun y => Scalar.select (anyBit fun n => a1 (ix3 b p n)) y z0)
    (fun n c => a0 (ix4 b p n c)) o

/-- The whole result array. -/
def encodeArr (a0 : (⟨4, ![16, 768, 32, 9]⟩ : Shape).Idx → EReal) (a1 : (⟨3, ![16, 768, 32]⟩ : Shape).Idx → BitVec 1)
    (a2 : (⟨2, ![128, 9]⟩ : Shape).Idx → EReal) (a3 a4 a5 a6 : (⟨1, ![128]⟩ : Shape).Idx → EReal)
    (a7 : (⟨2, ![128, 256]⟩ : Shape).Idx → EReal) (a8 a9 a10 a11 : (⟨1, ![128]⟩ : Shape).Idx → EReal)
    (a12 : (⟨2, ![128, 128]⟩ : Shape).Idx → EReal) (a13 a14 a15 a16 : (⟨1, ![128]⟩ : Shape).Idx → EReal)
    (a17 : (⟨2, ![128, 128]⟩ : Shape).Idx → EReal) (a18 : (⟨1, ![128]⟩ : Shape).Idx → EReal)
    (a19 : (⟨2, ![256, 128]⟩ : Shape).Idx → EReal) (a20 : (⟨1, ![256]⟩ : Shape).Idx → EReal) :
    (⟨3, ![16, 768, 256]⟩ : Shape).Idx → EReal :=
  fun i => encode a0 a1 a2 a3 a4 a5 a6 a7 a8 a9 a10 a11 a12 a13 a14 a15 a16 a17 a18 a19 a20
    ⟨(i 0).val, (i 0).isLt⟩ ⟨(i 1).val, (i 1).isLt⟩ ⟨(i 2).val, (i 2).isLt⟩

end Cert.Polyline

end
-- ==== Proof.KValue.lean ====
/-
  From the tile each grid point writes back to the whole result array.

  Grid point `t` with block indices `(i, j)` writes rows `64 j … 64 j + 63` of batch entry `i` of the result. The
  body's value on the point's blocks is the encoder's row on each of the 64 polylines (the body's three parts
  composed), with the mask as a product by the mask block's entries; those entries are the validity bits read as
  numbers, so the product is the select on the bit, and the blocks are the rows of the argument arrays. The 192
  tiles cover the result array, which therefore holds the encoder of the arguments at every index.
-/
import proofs.«168215_j18511309045816_1_alg».proof.Proof.Gen.KernelIdeal.Value
import proofs.«168215_j18511309045816_1_alg».proof.Proof.KBody
import proofs.«168215_j18511309045816_1_alg».proof.Proof.KBlocks
import proofs.«168215_j18511309045816_1_alg».proof.Proof.KCover
import proofs.«168215_j18511309045816_1_alg».proof.Proof.Arrays
import proofs.«168215_j18511309045816_1_alg».proof.Proof.Mask
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.KernelIdeal.Enc

open Cert.KernelIdeal Cert.KernelIdeal.Gen Cert.KernelIdeal.Value Cert.Polyline

variable (m : (ℓ : Loc nD τ sig) → Buf (Elt Ideal) ℓ)

variable (ρ : Dev nD → PrngReg)

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The result array the kernel's run ends with: the encoder of the argument arrays. -/
abbrev G (c : Dev nD) : S16x768x256.Idx → EReal :=
  encodeArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20))

/-- What grid point `t` writes back is its tile of the encoder of the argument arrays. -/
theorem flushed_eq (c : Dev nD) (t : Fin cfg0.N) :
    (dats m 0 c).flushed 21 t = ((cfg0.win 21).blk t).view.read (Elt Ideal) (G m c) := by
  rw [flushed21]
  unfold out0_21
  rw [View.canon_unit_zero hz3]
  simp only [View.ld_unit_zero (S := S1x64x32x9) hz4, View.ld_unit_zero (S := S1x64x32) hz3,
    View.ld_unit_zero (S := S128x9) hz2, View.ld_unit_zero (S := S128) hz1, View.ld_unit_zero (S := S128x256) hz2,
    View.ld_unit_zero (S := S128x128) hz2, View.ld_unit_zero (S := S256x128) hz2, View.ld_unit_zero (S := S256) hz1]
  funext y
  obtain ⟨y0, r, o, rfl⟩ : ∃ (y0 : Fin 1) (r : Fin 64) (o : Fin 256), y = ix3 y0 r o := ⟨y 0, y 1, y 2, eq_ix3 y⟩
  obtain rfl : y0 = 0 := Subsingleton.elim _ _
  obtain ⟨-, -, hb16, hp12, -⟩ := idx_facts t
  obtain ⟨b, hb⟩ : ∃ b : Fin 16, b.val = win0_21.index t (0 : Fin 3) := ⟨⟨_, hb16⟩, rfl⟩
  obtain ⟨p, hp⟩ : ∃ p : Fin 768, p.val = win0_21.index t (1 : Fin 3) * 64 + r.val :=
    ⟨⟨win0_21.index t (1 : Fin 3) * 64 + r.val, by have := r.isLt; omega⟩, rfl⟩
  refine (Cert.Polyline.Kernel.body_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) r o).trans ?_
  rw [View.read_apply]
  show _ = G m c (((cfg0.win 21).blk t).view.emb (ix3 (0 : Fin 1) r o : S1x64x256.Idx))
  rw [emb21 t r o b p hb hp]
  show _ = encode (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) b p o
  unfold encode
  have hx : (fun (n : Fin 32) (k : Fin 9) => (iblk m c 0 t : FVec Ideal S1x64x32x9 .f32) (ix4 (0 : Fin 1) r n k))
      = fun n k => ((m ((c : Thread nD τ).loc main_arg0)) : S16x768x32x9.Idx → EReal) (ix4 b p n k) :=
    funext fun n => funext fun k => blk0_apply m c t r n k b p hb hp
  have hw : ∀ n : Fin 32, (iblk m c 1 t : FVec Ideal S1x64x32 .f32) (ix3 (0 : Fin 1) r n)
      = bitNum (((m ((c : Thread nD τ).loc main_arg1)) : S16x768x32.Idx → BitVec 1) (ix3 b p n)) :=
    fun n => blk1_apply m c t r n b p hb hp
  rw [blk2_eq m c t, blk3_eq m c t, blk4_eq m c t, blk5_eq m c t, blk6_eq m c t, blk7_eq m c t, blk8_eq m c t, blk9_eq m c t, blk10_eq m c t, blk11_eq m c t, blk12_eq m c t, blk13_eq m c t, blk14_eq m c t, blk15_eq m c t, blk16_eq m c t, blk17_eq m c t, blk18_eq m c t, blk19_eq m c t, blk20_eq m c t, hx]
  exact row_mask _ (fun n => (iblk m c 1 t : FVec Ideal S1x64x32 .f32) (ix3 (0 : Fin 1) r n))
    (fun n => ((m ((c : Thread nD τ).loc main_arg1)) : S16x768x32.Idx → BitVec 1) (ix3 b p n)) hw _ o

/-- The result array after the run is the encoder of the argument arrays: every grid point writes its tile of it,
    and the tiles cover the array. -/
theorem final21 (c : Dev nD) : (dats m 0 c).arrAt 21 cfg0.N = G m c :=
  (dats m 0 c).arrAt_eq_of_cover 21 (G m c) (fun t _ => flushed_eq m c t) covered21

/-- The kernel's run: the result array ends at the encoder of the argument arrays, the arguments unchanged. -/
theorem run : θ_run defs (onTc (τ := τ) (main (F := Ideal))) ⟨m, fun _ => 0, ρ⟩ fun r => ∀ c : Dev nD,
      r.2.mem ((c : Thread nD τ).loc main_v1) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)
      ∧ r.2.mem ((c : Thread nD τ).loc main_arg20) = m ((c : Thread nD τ).loc main_arg20) :=
  (θ_run defs _ _).mono (fun _ h c => ⟨(h c).1.trans (final21 m c), (h c).2⟩) (run_blocks m ρ)

end Cert.KernelIdeal.Enc

end
-- ==== Proof.RefA.lean ====
/-
  The reference's first stretch read at an index: the first layer, the invalid points put to zero, the maximum
  over a polyline's points, and the joined features.
-/
import proofs.«168215_j18511309045816_1_alg».proof.Proof.RefRead
import proofs.«168215_j18511309045816_1_alg».proof.Proof.Spec
import Idealize.ShloMosaic.PureOps.Ideal.Laws
import Idealize.ShloMosaic.PureOps.Reduce
import Idealize.ShloMosaic.Lib.ValueIdx
import Idealize.ShloMosaic.Lib.Pipeline.Value

noncomputable section

open scoped BigOperators

namespace Cert.Polyline.Reference

open Cert.ReferenceIdeal Cert.ReferenceIdeal.ReadP Idealize.ShloMosaic Idealize.ShloMosaic.ValueIdx Cert.Polyline

/-! ## The composed index maps, at an index given by its coordinates

Each broadcast reads its operand at an index computed from the result's; composed along the chain and taken at
`(b, p, n, c)` these are the indices `(b, p, n)` of the validity bit, `c` of a per-channel vector, `(b, p, n, k)`
of a coordinate and `(c, k)` of a weight. -/

/-- The validity bit broadcast along the channels is read at the point. -/
theorem idx_bit (b : Fin 16) (p : Fin 768) (n : Fin 32) (c : Fin 128) :
    idx_main_v0 (idx_main_call1_v1 (ix4 b p n c)) = ix3 b p n :=
  funext fun a => match a with | ⟨0, _⟩ => rfl | ⟨1, _⟩ => rfl | ⟨2, _⟩ => rfl

/-- The mean, broadcast over the points, is read at the channel. -/
theorem idx_mean (b : Fin 16) (p : Fin 768) (n : Fin 32) (c : Fin 128) :
    idx_main_v2 (idx_main_v3 (ix4 b p n c)) = ix1 c :=
  funext fun a => match a with | ⟨0, _⟩ => rfl

/-- The scale, broadcast over the points, is read at the channel. -/
theorem idx_scale (b : Fin 16) (p : Fin 768) (n : Fin 32) (c : Fin 128) :
    idx_main_v9 (idx_main_v10 (ix4 b p n c)) = ix1 c :=
  funext fun a => match a with | ⟨0, _⟩ => rfl

/-- The offset, broadcast over the points, is read at the channel. -/
theorem idx_offset (b : Fin 16) (p : Fin 768) (n : Fin 32) (c : Fin 128) :
    idx_main_v12 (idx_main_v13 (ix4 b p n c)) = ix1 c :=
  funext fun a => match a with | ⟨0, _⟩ => rfl

/-- The product's left operand: coordinate `k` of the point. -/
theorem lidx_pt (b : Fin 16) (p : Fin 768) (n : Fin 32) (c : Fin 128) (k : Fin 9) :
    lidx_main_v1 (ix4 b p n c) k = ix4 b p n k :=
  funext fun a => match a with | ⟨0, _⟩ => rfl | ⟨1, _⟩ => rfl | ⟨2, _⟩ => rfl | ⟨3, _⟩ => rfl

/-- The product's right operand: weight `(c, k)`. -/
theorem ridx_w (b : Fin 16) (p : Fin 768) (n : Fin 32) (c : Fin 128) (k : Fin 9) :
    ridx_main_v1 (ix4 b p n c) k = ix2 c k :=
  funext fun a => match a with | ⟨0, _⟩ => rfl | ⟨1, _⟩ => rfl

/-- The pooled features, broadcast back over the points, are read at the polyline and the channel. -/
theorem idx_pool (b : Fin 16) (p : Fin 768) (n : Fin 32) (c : Fin 128) :
    idx_main_v18 (idx_main_v19 (ix4 b p n c)) = ix3 b p c :=
  funext fun a => match a with | ⟨0, _⟩ => rfl | ⟨1, _⟩ => rfl | ⟨2, _⟩ => rfl

/-! ## The first layer at a point -/

/-- Point `n`, channel `c` of polyline `(b, p)` after the first layer and the select on the validity bit. -/
theorem v16_apply (a0 : (⟨S16x768x32x9, .f32⟩ : BufTy).Contents (Elt Ideal)) (a1 : (⟨S16x768x32, .i1⟩ : BufTy).Contents (Elt Ideal)) (a2 : (⟨S128x9, .f32⟩ : BufTy).Contents (Elt Ideal)) (a3 a4 a5 a6 : (⟨S128, .f32⟩ : BufTy).Contents (Elt Ideal))
    (b : Fin 16) (p : Fin 768) (n : Fin 32) (c : Fin 128) :
    val_main_v16 (F := Ideal) a0 a1 a2 a3 a4 a5 a6 (ix4 b p n c)
      = feat (fun n' y => Scalar.select (a1 (ix3 b p n')) y z0) (fun o c => a2 (ix2 o c)) (fun o => a3 (ix1 o))
          (fun o => a4 (ix1 o)) (fun o => a5 (ix1 o)) (fun o => a6 (ix1 o)) (fun n' c => a0 (ix4 b p n' c)) n c := by
  rw [val_main_v16_apply, val_main_call1_v1_apply, val_main_v0_apply, val_main_call1_v2_apply, val_main_call1_v0_apply,
    val_main_cst_0_apply, val_main_v15_apply, val_main_call0_v0_apply, val_main_call0_cst_apply, val_main_v14_apply,
    val_main_v13_apply, val_main_v12_apply, val_main_v11_apply, val_main_v10_apply, val_main_v9_apply, val_main_v8_apply,
    val_main_v7_apply, val_main_v6_apply, val_main_v5_apply, val_main_cst_apply, val_main_v4_apply, val_main_v3_apply,
    val_main_v2_apply, val_main_v1_apply, idx_bit, idx_mean, idx_scale, idx_offset]
  simp only [lidx_pt, ridx_w]
  rfl

/-! ## The maximum over the points -/

/-- The reduction's source index over `(b, p, c)` with point `n` put in on the reduced axis. -/
theorem lift_pt (h : S16x768x32x128.Reduces [2] S16x768x128) (b : Fin 16) (p : Fin 768) (c : Fin 128) (n : Fin 32) :
    h.lift (ix3 b p c) n = ix4 b p n c :=
  funext fun a => Fin.ext (by match a with | ⟨0, _⟩ => rfl | ⟨1, _⟩ => rfl | ⟨2, _⟩ => rfl | ⟨3, _⟩ => rfl)

/-- Channel `c` of polyline `(b, p)` after the maximum over the points. -/
theorem v17_apply (a0 : (⟨S16x768x32x9, .f32⟩ : BufTy).Contents (Elt Ideal)) (a1 : (⟨S16x768x32, .i1⟩ : BufTy).Contents (Elt Ideal)) (a2 : (⟨S128x9, .f32⟩ : BufTy).Contents (Elt Ideal)) (a3 a4 a5 a6 : (⟨S128, .f32⟩ : BufTy).Contents (Elt Ideal))
    (b : Fin 16) (p : Fin 768) (c : Fin 128) :
    val_main_v17 (F := Ideal) a0 a1 a2 a3 a4 a5 a6 (ix3 b p c)
      = poolMax fun n' => feat (fun n' y => Scalar.select (a1 (ix3 b p n')) y z0) (fun o c => a2 (ix2 o c)) (fun o => a3 (ix1 o))
          (fun o => a4 (ix1 o)) (fun o => a5 (ix1 o)) (fun o => a6 (ix1 o)) (fun n' c => a0 (ix4 b p n' c)) n' c := by
  have h : S16x768x32x128.Reduces [2] S16x768x128 := by decide
  unfold val_main_v17
  refine (Host.reduce_eq_fold_single FloatOps.maximumf _ _ Gen.reducesTo_S16x768x32x128_S16x768x128_d2 h Gen.h_S_ (ix3 b p c)).trans ?_
  unfold poolMax
  show (Finset.univ : Finset (Fin 32)).fold max ninf (fun n' => val_main_v16 (F := Ideal) a0 a1 a2 a3 a4 a5 a6 (h.lift (ix3 b p c) n')) = _
  refine congrArg (fun f => (Finset.univ : Finset (Fin 32)).fold max ninf f) (funext fun (n' : Fin 32) => ?_)
  rw [lift_pt, v16_apply]

/-- Point `n`, channel `c` of the pooled features broadcast back over the points. -/
theorem v19_apply (a0 : (⟨S16x768x32x9, .f32⟩ : BufTy).Contents (Elt Ideal)) (a1 : (⟨S16x768x32, .i1⟩ : BufTy).Contents (Elt Ideal)) (a2 : (⟨S128x9, .f32⟩ : BufTy).Contents (Elt Ideal)) (a3 a4 a5 a6 : (⟨S128, .f32⟩ : BufTy).Contents (Elt Ideal))
    (b : Fin 16) (p : Fin 768) (n : Fin 32) (c : Fin 128) :
    val_main_v19 (F := Ideal) a0 a1 a2 a3 a4 a5 a6 (ix4 b p n c)
      = poolMax fun n' => feat (fun n' y => Scalar.select (a1 (ix3 b p n')) y z0) (fun o c => a2 (ix2 o c)) (fun o => a3 (ix1 o))
          (fun o => a4 (ix1 o)) (fun o => a5 (ix1 o)) (fun o => a6 (ix1 o)) (fun n' c => a0 (ix4 b p n' c)) n' c := by
  rw [val_main_v19_apply, val_main_v18_apply, idx_pool, v17_apply]

/-! ## The joined features -/

/-- Polyline `(b, p)`, point `n`, channel `k` of the reference's joined features. -/
theorem v20_apply (a0 : (⟨S16x768x32x9, .f32⟩ : BufTy).Contents (Elt Ideal)) (a1 : (⟨S16x768x32, .i1⟩ : BufTy).Contents (Elt Ideal)) (a2 : (⟨S128x9, .f32⟩ : BufTy).Contents (Elt Ideal)) (a3 a4 a5 a6 : (⟨S128, .f32⟩ : BufTy).Contents (Elt Ideal))
    (b : Fin 16) (p : Fin 768) (n : Fin 32) (k : Fin 256) :
    val_main_v20 (F := Ideal) a0 a1 a2 a3 a4 a5 a6 (ix4 b p n k)
      = catOf (feat (fun n' y => Scalar.select (a1 (ix3 b p n')) y z0) (fun o c => a2 (ix2 o c)) (fun o => a3 (ix1 o))
          (fun o => a4 (ix1 o)) (fun o => a5 (ix1 o)) (fun o => a6 (ix1 o)) (fun n' c => a0 (ix4 b p n' c))) n k := by
  unfold val_main_v20 catOf
  by_cases hk : k.val < 128
  · rw [dif_pos hk]
    refine (concatenate_pair_apply_left (3 : Fin S16x768x32x256.rank) _ _
      Gen.concatenates_S16x768x32x128_S16x768x32x128_S16x768x32x256_d3 (ix4 b p n k) rfl (ix4 b p n (⟨k.val, hk⟩ : Fin 128))
      (fun a => match a with | ⟨0, _⟩ => rfl | ⟨1, _⟩ => rfl | ⟨2, _⟩ => rfl | ⟨3, _⟩ => rfl)).trans ?_
    exact v16_apply a0 a1 a2 a3 a4 a5 a6 b p n ⟨k.val, hk⟩
  · rw [dif_neg hk]
    have hk' : k.val - 128 < 128 := by have := k.isLt; omega
    refine (concatenate_pair_apply_right (3 : Fin S16x768x32x256.rank) _ _
      Gen.concatenates_S16x768x32x128_S16x768x32x128_S16x768x32x256_d3 (ix4 b p n k) rfl rfl (ix4 b p n (⟨k.val - 128, hk'⟩ : Fin 128))
      (fun a => match a with
        | ⟨0, _⟩ => fun _ => rfl | ⟨1, _⟩ => fun _ => rfl | ⟨2, _⟩ => fun _ => rfl
        | ⟨3, _⟩ => fun hne => absurd rfl hne)
      (by show k.val - 128 + 128 = k.val; omega)).trans ?_
    exact v19_apply a0 a1 a2 a3 a4 a5 a6 b p n ⟨k.val - 128, hk'⟩

end Cert.Polyline.Reference

end
-- ==== Proof.RefB.lean ====
/-
  The reference's second stretch read at an index: the second and third layers on the joined features, the
  invalid points put to zero.
-/
import proofs.«168215_j18511309045816_1_alg».proof.Proof.RefRead
import proofs.«168215_j18511309045816_1_alg».proof.Proof.Spec
import Idealize.ShloMosaic.PureOps.Ideal.Laws
import Idealize.ShloMosaic.PureOps.Reduce
import Idealize.ShloMosaic.Lib.ValueIdx
import Idealize.ShloMosaic.Lib.Pipeline.Value

noncomputable section

open scoped BigOperators

namespace Cert.Polyline.Reference

open Cert.ReferenceIdeal Cert.ReferenceIdeal.ReadP Idealize.ShloMosaic Idealize.ShloMosaic.ValueIdx Cert.Polyline

/-! ## A channel vector laid over every point of every polyline -/

private theorem chan_v23 (w : (⟨S128, .f32⟩ : BufTy).Contents (Elt Ideal)) (b : Fin 16) (p : Fin 768) (n : Fin 32) (h : Fin 128) :
    val_main_v23 (F := Ideal) w (ix4 b p n h) = w (ix1 h) := by
  rw [val_main_v23_apply, val_main_v22_apply]
  exact congrArg w (funext fun a => match a with | ⟨0, _⟩ => rfl)

private theorem chan_v33 (w : (⟨S128, .f32⟩ : BufTy).Contents (Elt Ideal)) (b : Fin 16) (p : Fin 768) (n : Fin 32) (h : Fin 128) :
    val_main_v33 (F := Ideal) w (ix4 b p n h) = w (ix1 h) := by
  rw [val_main_v33_apply, val_main_v32_apply]
  exact congrArg w (funext fun a => match a with | ⟨0, _⟩ => rfl)

private theorem chan_v38 (w : (⟨S128, .f32⟩ : BufTy).Contents (Elt Ideal)) (b : Fin 16) (p : Fin 768) (n : Fin 32) (h : Fin 128) :
    val_main_v38 (F := Ideal) w (ix4 b p n h) = w (ix1 h) := by
  rw [val_main_v38_apply, val_main_v37_apply]
  exact congrArg w (funext fun a => match a with | ⟨0, _⟩ => rfl)

private theorem chan_v48 (w : (⟨S128, .f32⟩ : BufTy).Contents (Elt Ideal)) (b : Fin 16) (p : Fin 768) (n : Fin 32) (h : Fin 128) :
    val_main_v48 (F := Ideal) w (ix4 b p n h) = w (ix1 h) := by
  rw [val_main_v48_apply, val_main_v47_apply]
  exact congrArg w (funext fun a => match a with | ⟨0, _⟩ => rfl)

/-! ## The scale of a normalisation: the gain over the root of the variance plus `eps`, laid over every point -/

private theorem scale_v30 (g v : (⟨S128, .f32⟩ : BufTy).Contents (Elt Ideal)) (b : Fin 16) (p : Fin 768) (n : Fin 32) (h : Fin 128) :
    val_main_v30 (F := Ideal) g v (ix4 b p n h) = g (ix1 h) * Ideal.rsqrt (v (ix1 h) + eps) := by
  rw [val_main_v30_apply, val_main_v29_apply]
  have e : idx_main_v29 (idx_main_v30 (ix4 b p n h)) = ix1 h := funext fun a => match a with | ⟨0, _⟩ => rfl
  rw [e]
  show g (ix1 h) * Ideal.rsqrt (v (ix1 h) + val_main_v25 (F := Ideal) (ix1 h)) = _
  rw [val_main_v25_apply]
  rfl

private theorem scale_v45 (g v : (⟨S128, .f32⟩ : BufTy).Contents (Elt Ideal)) (b : Fin 16) (p : Fin 768) (n : Fin 32) (h : Fin 128) :
    val_main_v45 (F := Ideal) g v (ix4 b p n h) = g (ix1 h) * Ideal.rsqrt (v (ix1 h) + eps) := by
  rw [val_main_v45_apply, val_main_v44_apply]
  have e : idx_main_v44 (idx_main_v45 (ix4 b p n h)) = ix1 h := funext fun a => match a with | ⟨0, _⟩ => rfl
  rw [e]
  show g (ix1 h) * Ideal.rsqrt (v (ix1 h) + val_main_v40 (F := Ideal) (ix1 h)) = _
  rw [val_main_v40_apply]
  rfl

/-! ## The two layers -/

/-- The second layer at point `n` of polyline `(b, p)`, channel `k`: `act` of the point's joined features. -/
private theorem layer1_apply (a0 : (⟨S16x768x32x9, .f32⟩ : BufTy).Contents (Elt Ideal)) (a1 : (⟨S16x768x32, .i1⟩ : BufTy).Contents (Elt Ideal)) (a2 : (⟨S128x9, .f32⟩ : BufTy).Contents (Elt Ideal)) (a3 a4 a5 a6 : (⟨S128, .f32⟩ : BufTy).Contents (Elt Ideal))
    (a7 : (⟨S128x256, .f32⟩ : BufTy).Contents (Elt Ideal)) (a8 a9 a10 a11 : (⟨S128, .f32⟩ : BufTy).Contents (Elt Ideal)) (b : Fin 16) (p : Fin 768) (n : Fin 32) (k : Fin 128) :
    val_main_v35 (F := Ideal) a0 a1 a2 a3 a4 a5 a6 a7 a8 a9 a10 a11 (ix4 b p n k)
      = act (fun o k => a7 (ix2 o k)) (fun o => a8 (ix1 o)) (fun o => a9 (ix1 o)) (fun o => a10 (ix1 o)) (fun o => a11 (ix1 o))
          (fun k' => val_main_v20 (F := Ideal) a0 a1 a2 a3 a4 a5 a6 (ix4 b p n k')) k := by
  rw [val_main_v35_apply, val_main_v34_apply, val_main_v31_apply, val_main_v24_apply, val_main_v21_apply, chan_v23, scale_v30,
    chan_v33, val_main_call2_v0_apply]
  unfold act lin
  refine congrArg (fun s => max ((s - a10 (ix1 k)) * (a8 (ix1 k) * Ideal.rsqrt (a11 (ix1 k) + eps)) + a9 (ix1 k)) z0)
    (Finset.sum_congr rfl fun k' _ => ?_)
  have el : lidx_main_v21 (ix4 b p n k) k' = ix4 b p n k' :=
    funext fun a => match a with | ⟨0, _⟩ => rfl | ⟨1, _⟩ => rfl | ⟨2, _⟩ => rfl | ⟨3, _⟩ => rfl
  have er : ridx_main_v21 (ix4 b p n k) k' = ix2 k k' := funext fun a => match a with | ⟨0, _⟩ => rfl | ⟨1, _⟩ => rfl
  rw [el, er]

/-- The third layer at point `n` of polyline `(b, p)`, channel `h`: `act` of the second layer's output at the point. -/
private theorem layer2_apply (a0 : (⟨S16x768x32x9, .f32⟩ : BufTy).Contents (Elt Ideal)) (a1 : (⟨S16x768x32, .i1⟩ : BufTy).Contents (Elt Ideal)) (a2 : (⟨S128x9, .f32⟩ : BufTy).Contents (Elt Ideal)) (a3 a4 a5 a6 : (⟨S128, .f32⟩ : BufTy).Contents (Elt Ideal))
    (a7 : (⟨S128x256, .f32⟩ : BufTy).Contents (Elt Ideal)) (a8 a9 a10 a11 : (⟨S128, .f32⟩ : BufTy).Contents (Elt Ideal)) (a12 : (⟨S128x128, .f32⟩ : BufTy).Contents (Elt Ideal)) (a13 a14 a15 a16 : (⟨S128, .f32⟩ : BufTy).Contents (Elt Ideal))
    (b : Fin 16) (p : Fin 768) (n : Fin 32) (h : Fin 128) :
    val_main_v50 (F := Ideal) a0 a1 a2 a3 a4 a5 a6 a7 a8 a9 a10 a11 a12 a13 a14 a15 a16 (ix4 b p n h)
      = act (fun o k => a12 (ix2 o k)) (fun o => a13 (ix1 o)) (fun o => a14 (ix1 o)) (fun o => a15 (ix1 o)) (fun o => a16 (ix1 o))
          (fun k => val_main_v35 (F := Ideal) a0 a1 a2 a3 a4 a5 a6 a7 a8 a9 a10 a11 (ix4 b p n k)) h := by
  rw [val_main_v50_apply, val_main_v49_apply, val_main_v46_apply, val_main_v39_apply, val_main_v36_apply, chan_v38, scale_v45,
    chan_v48, val_main_call3_v0_apply]
  unfold act lin
  refine congrArg (fun s => max ((s - a15 (ix1 h)) * (a13 (ix1 h) * Ideal.rsqrt (a16 (ix1 h) + eps)) + a14 (ix1 h)) z0)
    (Finset.sum_congr rfl fun k _ => ?_)
  have el : lidx_main_v36 (ix4 b p n h) k = ix4 b p n k :=
    funext fun a => match a with | ⟨0, _⟩ => rfl | ⟨1, _⟩ => rfl | ⟨2, _⟩ => rfl | ⟨3, _⟩ => rfl
  have er : ridx_main_v36 (ix4 b p n h) k = ix2 h k := funext fun a => match a with | ⟨0, _⟩ => rfl | ⟨1, _⟩ => rfl
  rw [el, er]

/-! ## The stage -/

/-- Polyline `(b, p)`, point `n`, channel `h` after the third layer and the mask. -/
theorem v51_apply (a0 : (⟨S16x768x32x9, .f32⟩ : BufTy).Contents (Elt Ideal)) (a1 : (⟨S16x768x32, .i1⟩ : BufTy).Contents (Elt Ideal)) (a2 : (⟨S128x9, .f32⟩ : BufTy).Contents (Elt Ideal)) (a3 a4 a5 a6 : (⟨S128, .f32⟩ : BufTy).Contents (Elt Ideal))
    (a7 : (⟨S128x256, .f32⟩ : BufTy).Contents (Elt Ideal)) (a8 a9 a10 a11 : (⟨S128, .f32⟩ : BufTy).Contents (Elt Ideal)) (a12 : (⟨S128x128, .f32⟩ : BufTy).Contents (Elt Ideal)) (a13 a14 a15 a16 : (⟨S128, .f32⟩ : BufTy).Contents (Elt Ideal))
    (b : Fin 16) (p : Fin 768) (n : Fin 32) (h : Fin 128) :
    val_main_v51 (F := Ideal) a0 a1 a2 a3 a4 a5 a6 a7 a8 a9 a10 a11 a12 a13 a14 a15 a16 (ix4 b p n h)
      = hid (fun n' y => Scalar.select (a1 (ix3 b p n')) y z0)
          (fun o k => a7 (ix2 o k)) (fun o => a8 (ix1 o)) (fun o => a9 (ix1 o)) (fun o => a10 (ix1 o)) (fun o => a11 (ix1 o))
          (fun o k => a12 (ix2 o k)) (fun o => a13 (ix1 o)) (fun o => a14 (ix1 o)) (fun o => a15 (ix1 o)) (fun o => a16 (ix1 o))
          (fun n' k => val_main_v20 (F := Ideal) a0 a1 a2 a3 a4 a5 a6 (ix4 b p n' k)) n h := by
  rw [val_main_v51_apply, val_main_call4_v1_apply, val_main_v0_apply, val_main_call4_v2_apply, layer2_apply]
  have e : idx_main_v0 (idx_main_call4_v1 (ix4 b p n h)) = ix3 b p n :=
    funext fun a => match a with | ⟨0, _⟩ => rfl | ⟨1, _⟩ => rfl | ⟨2, _⟩ => rfl
  rw [e]
  unfold hid
  refine congrArg₂ (Scalar.select (a1 (ix3 b p n)))
    (congrArg (fun a => act (fun o k => a12 (ix2 o k)) (fun o => a13 (ix1 o)) (fun o => a14 (ix1 o)) (fun o => a15 (ix1 o)) (fun o => a16 (ix1 o)) a h)
      (funext fun k => layer1_apply a0 a1 a2 a3 a4 a5 a6 a7 a8 a9 a10 a11 b p n k)) rfl

end Cert.Polyline.Reference

end
-- ==== Proof.RefC.lean ====
/-
  The reference's last stretch read at an index: the maximum over a polyline's points, the output perceptron,
  and the zeros for a polyline with no valid point.
-/
import proofs.«168215_j18511309045816_1_alg».proof.Proof.RefRead
import proofs.«168215_j18511309045816_1_alg».proof.Proof.Spec
import Idealize.ShloMosaic.PureOps.Ideal.Laws
import Idealize.ShloMosaic.PureOps.Reduce
import Idealize.ShloMosaic.Lib.ValueIdx
import Idealize.ShloMosaic.Lib.Pipeline.Value

noncomputable section

open scoped BigOperators

namespace Cert.Polyline.Reference

open Cert.ReferenceIdeal Cert.ReferenceIdeal.ReadP Idealize.ShloMosaic Idealize.ShloMosaic.ValueIdx Cert.Polyline

/-- A maximum taken along the points' axis of a `16 × 768 × 32 × 128` array, read at polyline `(b, p)` and channel `c`:
    the fold of `max`, from the initial value, over the 32 points `n` of the entries at `(b, p, n, c)`. Reducing one
    axis runs over the indices that agree with `(b, p, c)` off that axis, and these are the 32 indices `(b, p, n, c)`. -/
theorem reduce_max_apply (x : (⟨S16x768x32x128, .f32⟩ : BufTy).Contents (Elt Ideal)) (init : (⟨S_, .f32⟩ : BufTy).Contents (Elt Ideal))
    (b : Fin 16) (p : Fin 768) (c : Fin 128) :
    Host.reduce (FloatOps.maximumf (F := Ideal) (φ := .f32)) x init Gen.reducesTo_S16x768x32x128_S16x768x128_d2 Gen.h_S_ (ix3 b p c)
      = (Finset.univ : Finset (Fin 32)).fold max (init (Shape.Idx.first Gen.h_S_)) (fun n => x (ix4 b p n c)) := by
  have hR : S16x768x32x128.Reduces [2] S16x768x128 := by decide
  refine (Host.reduce_eq_fold_single _ x init Gen.reducesTo_S16x768x32x128_S16x768x128_d2 hR Gen.h_S_ (ix3 b p c)).trans ?_
  have hl : ∀ n : Fin 32, hR.lift (ix3 b p c) n = ix4 b p n c := fun n => funext fun a => Fin.ext (by
    match a with
    | ⟨0, _⟩ => rfl
    | ⟨1, _⟩ => rfl
    | ⟨2, _⟩ => rfl
    | ⟨3, _⟩ => rfl)
  have e : (x ∘ hR.lift (ix3 b p c)) = fun n : Fin 32 => x (ix4 b p n c) := funext fun n => congrArg x (hl n)
  exact congrArg (fun f => Finset.fold max (init (Shape.Idx.first Gen.h_S_)) f (Finset.univ : Finset (Fin 32))) e

/-- The disjunction taken along the points' axis of the `16 × 768 × 32` validity bits, read at polyline `(b, p)`:
    the fold of `or`, from the initial bit, over the 32 points `n` of the bits at `(b, p, n)`. -/
theorem reduce_or_apply (x : (⟨S16x768x32, .i1⟩ : BufTy).Contents (Elt Ideal)) (init : (⟨S_, .i1⟩ : BufTy).Contents (Elt Ideal))
    (b : Fin 16) (p : Fin 768) :
    Host.reduce IntOp.ori x init Gen.reducesTo_S16x768x32_S16x768_d2 Gen.h_S_ (ix2 b p)
      = (Finset.univ : Finset (Fin 32)).fold IntOp.ori (init (Shape.Idx.first Gen.h_S_)) (fun n => x (ix3 b p n)) := by
  have hR : S16x768x32.Reduces [2] S16x768 := by decide
  refine (Host.reduce_eq_fold_single _ x init Gen.reducesTo_S16x768x32_S16x768_d2 hR Gen.h_S_ (ix2 b p)).trans ?_
  have hl : ∀ n : Fin 32, hR.lift (ix2 b p) n = ix3 b p n := fun n => funext fun a => Fin.ext (by
    match a with
    | ⟨0, _⟩ => rfl
    | ⟨1, _⟩ => rfl
    | ⟨2, _⟩ => rfl)
  have e : (x ∘ hR.lift (ix2 b p)) = fun n : Fin 32 => x (ix3 b p n) := funext fun n => congrArg x (hl n)
  exact congrArg (fun f => Finset.fold IntOp.ori (init (Shape.Idx.first Gen.h_S_)) f (Finset.univ : Finset (Fin 32))) e

/-- Polyline `(b, p)`, output `o` of the reference's result. -/
theorem v64_apply (a0 : (⟨S16x768x32x9, .f32⟩ : BufTy).Contents (Elt Ideal)) (a1 : (⟨S16x768x32, .i1⟩ : BufTy).Contents (Elt Ideal)) (a2 : (⟨S128x9, .f32⟩ : BufTy).Contents (Elt Ideal)) (a3 a4 a5 a6 : (⟨S128, .f32⟩ : BufTy).Contents (Elt Ideal))
    (a7 : (⟨S128x256, .f32⟩ : BufTy).Contents (Elt Ideal)) (a8 a9 a10 a11 : (⟨S128, .f32⟩ : BufTy).Contents (Elt Ideal)) (a12 : (⟨S128x128, .f32⟩ : BufTy).Contents (Elt Ideal)) (a13 a14 a15 a16 : (⟨S128, .f32⟩ : BufTy).Contents (Elt Ideal))
    (a17 : (⟨S128x128, .f32⟩ : BufTy).Contents (Elt Ideal)) (a18 : (⟨S128, .f32⟩ : BufTy).Contents (Elt Ideal)) (a19 : (⟨S256x128, .f32⟩ : BufTy).Contents (Elt Ideal)) (a20 : (⟨S256, .f32⟩ : BufTy).Contents (Elt Ideal))
    (b : Fin 16) (p : Fin 768) (o : Fin 256) :
    val_main_v64 (F := Ideal) a0 a1 a2 a3 a4 a5 a6 a7 a8 a9 a10 a11 a12 a13 a14 a15 a16 a17 a18 a19 a20 (ix3 b p o)
      = Scalar.select (anyBit fun n => a1 (ix3 b p n))
          (head (fun o k => a17 (ix2 o k)) (fun o => a18 (ix1 o)) (fun o k => a19 (ix2 o k)) (fun o => a20 (ix1 o))
            (fun n h => val_main_v51 (F := Ideal) a0 a1 a2 a3 a4 a5 a6 a7 a8 a9 a10 a11 a12 a13 a14 a15 a16 (ix4 b p n h)) o) z0 := by
  -- whether the polyline has a valid point: the disjunction over its 32 bits
  have h53 : val_main_v53 (F := Ideal) a1 (ix2 b p) = anyBit fun n => a1 (ix3 b p n) :=
    reduce_or_apply a1 (val_main_c (F := Ideal)) b p
  -- the features pooled over the points, channel by channel
  have h52 : ∀ c : Fin 128, val_main_v52 (F := Ideal) a0 a1 a2 a3 a4 a5 a6 a7 a8 a9 a10 a11 a12 a13 a14 a15 a16 (ix3 b p c) = poolMax (fun n => val_main_v51 (F := Ideal) a0 a1 a2 a3 a4 a5 a6 a7 a8 a9 a10 a11 a12 a13 a14 a15 a16 (ix4 b p n c)) :=
    fun c => reduce_max_apply (val_main_v51 (F := Ideal) a0 a1 a2 a3 a4 a5 a6 a7 a8 a9 a10 a11 a12 a13 a14 a15 a16) (val_main_cst_5 (F := Ideal)) b p c
  -- the first linear layer: row `h` of its weights against the pooled vector
  have h54 : ∀ h : Fin 128, val_main_v54 (F := Ideal) a0 a1 a2 a3 a4 a5 a6 a7 a8 a9 a10 a11 a12 a13 a14 a15 a16 a17 (ix3 b p h) = ∑ h' : Fin 128, poolMax (fun n => val_main_v51 (F := Ideal) a0 a1 a2 a3 a4 a5 a6 a7 a8 a9 a10 a11 a12 a13 a14 a15 a16 (ix4 b p n h')) * a17 (ix2 h h') := by
    intro h
    rw [val_main_v54_apply]
    refine Finset.sum_congr rfl fun k _ => ?_
    have e1 : lidx_main_v54 (ix3 b p h) k = ix3 b p k := funext fun a => by
      match a with
      | ⟨0, _⟩ => rfl
      | ⟨1, _⟩ => rfl
      | ⟨2, _⟩ => rfl
    have e2 : ridx_main_v54 (ix3 b p h) k = ix2 h k := funext fun a => by
      match a with
      | ⟨0, _⟩ => rfl
      | ⟨1, _⟩ => rfl
    rw [e1, e2, h52 k]
  -- its bias and the rectifier
  have h58 : ∀ h : Fin 128, val_main_v58 (F := Ideal) a0 a1 a2 a3 a4 a5 a6 a7 a8 a9 a10 a11 a12 a13 a14 a15 a16 a17 a18 (ix3 b p h) = max ((∑ h' : Fin 128, poolMax (fun n => val_main_v51 (F := Ideal) a0 a1 a2 a3 a4 a5 a6 a7 a8 a9 a10 a11 a12 a13 a14 a15 a16 (ix4 b p n h')) * a17 (ix2 h h')) + a18 (ix1 h)) z0 := by
    intro h
    rw [val_main_v58_apply, val_main_v57_apply, val_main_call5_v0_apply, val_main_call5_cst_apply, val_main_v56_apply, val_main_v55_apply, h54 h]
    have e : idx_main_v55 (idx_main_v56 (ix3 b p h)) = ix1 h := funext fun a => by
      match a with
      | ⟨0, _⟩ => rfl
    rw [e]
    rfl
  -- the second linear layer: row `o` of its weights against the rectified vector
  have h59 : val_main_v59 (F := Ideal) a0 a1 a2 a3 a4 a5 a6 a7 a8 a9 a10 a11 a12 a13 a14 a15 a16 a17 a18 a19 (ix3 b p o) = ∑ h : Fin 128, max ((∑ h' : Fin 128, poolMax (fun n => val_main_v51 (F := Ideal) a0 a1 a2 a3 a4 a5 a6 a7 a8 a9 a10 a11 a12 a13 a14 a15 a16 (ix4 b p n h')) * a17 (ix2 h h')) + a18 (ix1 h)) z0 * a19 (ix2 o h) := by
    rw [val_main_v59_apply]
    refine Finset.sum_congr rfl fun k _ => ?_
    have e1 : lidx_main_v59 (ix3 b p o) k = ix3 b p k := funext fun a => by
      match a with
      | ⟨0, _⟩ => rfl
      | ⟨1, _⟩ => rfl
      | ⟨2, _⟩ => rfl
    have e2 : ridx_main_v59 (ix3 b p o) k = ix2 o k := funext fun a => by
      match a with
      | ⟨0, _⟩ => rfl
      | ⟨1, _⟩ => rfl
    rw [e1, e2, h58 k]
  -- its bias, and the selection on the polyline's bit against zero
  have e63 : idx_main_v63 (idx_main_call6_v1 (ix3 b p o)) = ix2 b p := funext fun a => by
    match a with
    | ⟨0, _⟩ => rfl
    | ⟨1, _⟩ => rfl
  have e60 : idx_main_v60 (idx_main_v61 (ix3 b p o)) = ix1 o := funext fun a => by
    match a with
    | ⟨0, _⟩ => rfl
  rw [val_main_v64_apply, val_main_call6_v1_apply, val_main_v63_apply, val_main_call6_v2_apply, val_main_call6_v0_apply, val_main_cst_6_apply,
    val_main_v62_apply, val_main_v61_apply, val_main_v60_apply, h59, e63, e60, h53]
  rfl

end Cert.Polyline.Reference

end
-- ==== Proof.RefValue.lean ====
/-
  The reference as one function of its arguments: its three stretches composed give, at every polyline and output,
  the encoder's row with selects on the validity bits; so its result array is the encoder of the argument arrays.
-/
import proofs.«168215_j18511309045816_1_alg».proof.Proof.RefA
import proofs.«168215_j18511309045816_1_alg».proof.Proof.RefB
import proofs.«168215_j18511309045816_1_alg».proof.Proof.RefC
import proofs.«168215_j18511309045816_1_alg».proof.Proof.Arrays

noncomputable section

open scoped BigOperators

namespace Cert.Polyline.Reference

open Cert.ReferenceIdeal Cert.ReferenceIdeal.ReadP Idealize.ShloMosaic Idealize.ShloMosaic.ValueIdx Cert.Polyline

/-- The reference's result at polyline `(b, p)`, output `o`. -/
theorem ref_apply (a0 : (⟨S16x768x32x9, .f32⟩ : BufTy).Contents (Elt Ideal)) (a1 : (⟨S16x768x32, .i1⟩ : BufTy).Contents (Elt Ideal)) (a2 : (⟨S128x9, .f32⟩ : BufTy).Contents (Elt Ideal)) (a3 a4 a5 a6 : (⟨S128, .f32⟩ : BufTy).Contents (Elt Ideal))
    (a7 : (⟨S128x256, .f32⟩ : BufTy).Contents (Elt Ideal)) (a8 a9 a10 a11 : (⟨S128, .f32⟩ : BufTy).Contents (Elt Ideal)) (a12 : (⟨S128x128, .f32⟩ : BufTy).Contents (Elt Ideal)) (a13 a14 a15 a16 : (⟨S128, .f32⟩ : BufTy).Contents (Elt Ideal))
    (a17 : (⟨S128x128, .f32⟩ : BufTy).Contents (Elt Ideal)) (a18 : (⟨S128, .f32⟩ : BufTy).Contents (Elt Ideal)) (a19 : (⟨S256x128, .f32⟩ : BufTy).Contents (Elt Ideal)) (a20 : (⟨S256, .f32⟩ : BufTy).Contents (Elt Ideal))
    (b : Fin 16) (p : Fin 768) (o : Fin 256) :
    val_main_v64 (F := Ideal) a0 a1 a2 a3 a4 a5 a6 a7 a8 a9 a10 a11 a12 a13 a14 a15 a16 a17 a18 a19 a20 (ix3 b p o)
      = encode a0 a1 a2 a3 a4 a5 a6 a7 a8 a9 a10 a11 a12 a13 a14 a15 a16 a17 a18 a19 a20 b p o := by
  rw [v64_apply]
  unfold encode row weightsOf
  dsimp only
  refine congrArg (fun f => Scalar.select _ (head _ _ _ _ f o) z0) ?_
  funext n h
  rw [v51_apply]
  refine congrArg (fun c => hid _ _ _ _ _ _ _ _ _ _ _ c n h) ?_
  funext n' k
  exact v20_apply a0 a1 a2 a3 a4 a5 a6 b p n' k

/-- The reference's result array is the encoder of its argument arrays. -/
theorem ref_eq (a0 : (⟨S16x768x32x9, .f32⟩ : BufTy).Contents (Elt Ideal)) (a1 : (⟨S16x768x32, .i1⟩ : BufTy).Contents (Elt Ideal)) (a2 : (⟨S128x9, .f32⟩ : BufTy).Contents (Elt Ideal)) (a3 a4 a5 a6 : (⟨S128, .f32⟩ : BufTy).Contents (Elt Ideal))
    (a7 : (⟨S128x256, .f32⟩ : BufTy).Contents (Elt Ideal)) (a8 a9 a10 a11 : (⟨S128, .f32⟩ : BufTy).Contents (Elt Ideal)) (a12 : (⟨S128x128, .f32⟩ : BufTy).Contents (Elt Ideal)) (a13 a14 a15 a16 : (⟨S128, .f32⟩ : BufTy).Contents (Elt Ideal))
    (a17 : (⟨S128x128, .f32⟩ : BufTy).Contents (Elt Ideal)) (a18 : (⟨S128, .f32⟩ : BufTy).Contents (Elt Ideal)) (a19 : (⟨S256x128, .f32⟩ : BufTy).Contents (Elt Ideal)) (a20 : (⟨S256, .f32⟩ : BufTy).Contents (Elt Ideal)) :
    val_main_v64 (F := Ideal) a0 a1 a2 a3 a4 a5 a6 a7 a8 a9 a10 a11 a12 a13 a14 a15 a16 a17 a18 a19 a20 = encodeArr a0 a1 a2 a3 a4 a5 a6 a7 a8 a9 a10 a11 a12 a13 a14 a15 a16 a17 a18 a19 a20 := by
  funext i
  obtain ⟨b, p, o, rfl⟩ : ∃ (b : Fin 16) (p : Fin 768) (o : Fin 256), i = ix3 b p o := ⟨i 0, i 1, i 2, eq_ix3 i⟩
  rw [ref_apply]
  rfl

end Cert.Polyline.Reference

end
-- ==== Proof.lean ====
/-
  The certificate of the polyline encoder: the Pallas kernel against its jnp reference, equal over the extended reals.

  Both programs compute, for each of the 16 × 768 polylines, the same function of the polyline's 32 × 9 coordinates,
  its 32 validity bits and the nineteen weight arrays (Proof/Spec.lean): three layers of linear map, fixed batch
  normalisation and rectifier with two maxima over the points, and a two-layer output perceptron. They differ in
  three ways that change nothing on the extended reals. The kernel narrows the operands of its matrix products to
  a shorter format, which is the identity there. The kernel tiles the polylines 64 at a time over a 16 × 12 grid,
  and the tiles cover the result (Proof/KValue.lean). The kernel puts invalid points and empty polylines to zero
  by multiplying with the validity bit read as the number 0 or 1, and takes a polyline's validity as the maximum of
  those numbers, where the reference selects on the bit and on the disjunction of the bits: `y · 1 = y` and
  `y · 0 = 0` hold for every extended real, infinite ones included (Proof/Mask.lean). No finiteness of the inputs
  is used.

  The frames of the two kernel programs are the generated ones; the reference's frame is its run with the result
  dropped; the idealization's ledger is empty.
-/
import proofs.«168215_j18511309045816_1_alg».proof.Defs
import proofs.«168215_j18511309045816_1_alg».proof.Proof.Gen.Kernel
import proofs.«168215_j18511309045816_1_alg».proof.Proof.Gen.Kernel.Skeleton
import proofs.«168215_j18511309045816_1_alg».proof.Proof.Gen.Kernel.Launch
import proofs.«168215_j18511309045816_1_alg».proof.Proof.Gen.Kernel.Points
import proofs.«168215_j18511309045816_1_alg».proof.Proof.Gen.Kernel.Frame
import proofs.«168215_j18511309045816_1_alg».proof.Proof.Gen.KernelIdeal
import proofs.«168215_j18511309045816_1_alg».proof.Proof.Gen.KernelIdeal.Skeleton
import proofs.«168215_j18511309045816_1_alg».proof.Proof.Gen.KernelIdeal.Launch
import proofs.«168215_j18511309045816_1_alg».proof.Proof.Gen.KernelIdeal.Points
import proofs.«168215_j18511309045816_1_alg».proof.Proof.Gen.KernelIdeal.Frame
import proofs.«168215_j18511309045816_1_alg».proof.Proof.Gen.KernelIdeal.Value
import proofs.«168215_j18511309045816_1_alg».proof.Proof.Gen.ReferenceIdeal
import proofs.«168215_j18511309045816_1_alg».proof.Proof.Gen.Pre_finite_inputs
import proofs.«168215_j18511309045816_1_alg».proof.Proof.KValue
import proofs.«168215_j18511309045816_1_alg».proof.Proof.RefValue
import Idealize.ShloMosaic.Adequacy
import Idealize.ShloMosaic.Init

noncomputable section

namespace Cert.Proof

open Idealize.ShloMosaic Idealize.SL.Sem

theorem frame_kernel [Cert.Kernel.Facts] [Cert.Pre_finite_inputs.Facts] : Cert.frame_Kernel :=
  fun m ρ _ => Cert.Kernel.Gen.frame m ρ

theorem frame_kernelIdeal [Cert.KernelIdeal.Facts] [Cert.Pre_finite_inputs.Facts] : Cert.frame_KernelIdeal :=
  fun m ρ _ => Cert.KernelIdeal.Gen.frame m ρ

/-- The reference runs and leaves its arguments as they were: its run with the result dropped. -/
theorem frame_reference [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.ValueP.run (F := Ideal) m ρ)

/-- Both runs end with the result array at the encoder of the argument arrays, and the two memories agree on those. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.KernelIdeal.Enc.G m c, Cert.KernelIdeal.Enc.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v64_eq, Cert.Polyline.Reference.ref_eq]
  rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2.1, (hagree c).2.2.2.2.2.2.2.2.2.2.2.2.2.2.2.2.2.1, (hagree c).2.2.2.2.2.2.2.2.2.2.2.2.2.2.2.2.2.2.1, (hagree c).2.2.2.2.2.2.2.2.2.2.2.2.2.2.2.2.2.2.2.1, (hagree c).2.2.2.2.2.2.2.2.2.2.2.2.2.2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
